-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x256 .f32) (main_arg10 : FVec F S128 .f32) (main_arg11 : FVec F S10x128 .f32) (main_arg12 : FVec F S10 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg11
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x256 .f32) (main_arg10 : FVec F S128 .f32) (main_arg11 : FVec F S10x128 .f32) (main_arg12 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x256 .f32) (main_arg6 : FVec F S128 .f32) (main_arg7 : FVec F S128x128 .f32) (main_arg8 : FVec F S128 .f32) (main_arg9 : FVec F S128x256 .f32) (main_arg10 : FVec F S128 .f32) (main_arg11 : FVec F S10x128 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S256x128 : Shape := ⟨2, ![256, 128]⟩
abbrev S5000x256 : Shape := ⟨2, ![5000, 256]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S128x10 : Shape := ⟨2, ![128, 10]⟩
abbrev S1x10 : Shape := ⟨2, ![1, 10]⟩
abbrev S64x10 : Shape := ⟨2, ![64, 10]⟩

abbrev nBuf : Space → Nat
  | .hbm => 85
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S10x128, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S128x128, .f32⟩
  | .hbm, ⟨18, _⟩ => ⟨S1x128, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x256, .f32⟩
  | .hbm, ⟨34, _⟩ => ⟨S256x128, .f32⟩
  | .hbm, ⟨35, _⟩ => ⟨S1x128, .f32⟩
  | .hbm, ⟨36, _⟩ => ⟨S50000x128, .f32⟩
  | .hbm, ⟨37, _⟩ => ⟨S128x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x256, .f32⟩
  | .hbm, ⟨54, _⟩ => ⟨S256x128, .f32⟩
  | .hbm, ⟨55, _⟩ => ⟨S1x128, .f32⟩
  | .hbm, ⟨56, _⟩ => ⟨S50000x128, .f32⟩
  | .hbm, ⟨57, _⟩ => ⟨S_, .f32⟩
  | .hbm, ⟨58, _⟩ => ⟨S64x128, .f32⟩
  | .hbm, ⟨59, _⟩ => ⟨S50000x1, .i32⟩
  | .hbm, ⟨60, _⟩ => ⟨S64x128, .f32⟩
  | .hbm, ⟨61, _⟩ => ⟨S_, .i32⟩
  | .hbm, ⟨62, _⟩ => ⟨S64, .i32⟩
  | .hbm, ⟨63, _⟩ => ⟨S_, .i32⟩
  | .hbm, ⟨64, _⟩ => ⟨S_, .i32⟩
  | .hbm, ⟨65, _⟩ => ⟨S50000, .i32⟩
  | .hbm, ⟨66, _⟩ => ⟨S50000, .i32⟩
  | .hbm, ⟨67, _⟩ => ⟨S_, .i32⟩
  | .hbm, ⟨68, _⟩ => ⟨S50000, .i32⟩
  | .hbm, ⟨69, _⟩ => ⟨S50000, .i1⟩
  | .hbm, ⟨70, _⟩ => ⟨S_, .i32⟩
  | .hbm, ⟨71, _⟩ => ⟨S50000, .i32⟩
  | .hbm, ⟨72, _⟩ => ⟨S50000, .i32⟩
  | .hbm, ⟨73, _⟩ => ⟨S50000, .i32⟩
  | .hbm, ⟨74, _⟩ => ⟨S50000x1, .i32⟩
  | .hbm, ⟨75, _⟩ => ⟨S_, .i32⟩
  | .hbm, ⟨76, _⟩ => ⟨S50000, .i32⟩
  | .hbm, ⟨77, _⟩ => ⟨S64, .i32⟩
  | .hbm, ⟨78, _⟩ => ⟨S64, .f32⟩
  | .hbm, ⟨79, _⟩ => ⟨S64x1, .f32⟩
  | .hbm, ⟨80, _⟩ => ⟨S64x128, .f32⟩
  | .hbm, ⟨81, _⟩ => ⟨S64x128, .f32⟩
  | .hbm, ⟨82, _⟩ => ⟨S128x10, .f32⟩
  | .hbm, ⟨83, _⟩ => ⟨S1x10, .f32⟩
  | .hbm, ⟨84, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S64x128, .f32⟩
  | .local _ .vmem, ⟨25, _⟩ => ⟨S128x10, .f32⟩
  | .local _ .vmem, ⟨26, _⟩ => ⟨S1x10, .f32⟩
  | .local _ .vmem, ⟨27, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_c_6 : Ref sig .tc := ⟨.hbm, 63, rfl⟩
abbrev main_call0_v0 : Ref sig .tc := ⟨.hbm, 64, rfl⟩
abbrev main_call0_v1 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S5000x128_S5000x128 : S5000x128.ShapeCasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S_S50000 : S_.BroadcastsInDim S50000 (![] : Fin 0 → Fin S50000.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v34) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S64x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v55) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S64x10.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S256x128 : Shape := ⟨2, ![256, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S10x128, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S128x128, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x256, .f32⟩
  | .hbm, ⟨36, _⟩ => ⟨S256x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S128x128, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x256, .f32⟩
  | .hbm, ⟨63, _⟩ => ⟨S256x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S64x128, .f32⟩
  | .hbm, ⟨73, _⟩ => ⟨S50000x1, .i32⟩
  | .hbm, ⟨74, _⟩ => ⟨S64x128, .f32⟩
  | .hbm, ⟨75, _⟩ => ⟨S_, .i32⟩
  | .hbm, ⟨76, _⟩ => ⟨S64, .i32⟩
  | .hbm, ⟨77, _⟩ => ⟨S_, .i32⟩
  | .hbm, ⟨78, _⟩ => ⟨S_, .i32⟩
  | .hbm, ⟨79, _⟩ => ⟨S50000, .i32⟩
  | .hbm, ⟨80, _⟩ => ⟨S50000, .i32⟩
  | .hbm, ⟨81, _⟩ => ⟨S_, .i32⟩
  | .hbm, ⟨82, _⟩ => ⟨S50000, .i32⟩
  | .hbm, ⟨83, _⟩ => ⟨S50000, .i1⟩
  | .hbm, ⟨84, _⟩ => ⟨S_, .i32⟩
  | .hbm, ⟨85, _⟩ => ⟨S50000, .i32⟩
  | .hbm, ⟨86, _⟩ => ⟨S50000, .i32⟩
  | .hbm, ⟨87, _⟩ => ⟨S50000, .i32⟩
  | .hbm, ⟨88, _⟩ => ⟨S50000x1, .i32⟩
  | .hbm, ⟨89, _⟩ => ⟨S_, .i32⟩
  | .hbm, ⟨90, _⟩ => ⟨S50000, .i32⟩
  | .hbm, ⟨91, _⟩ => ⟨S64, .i32⟩
  | .hbm, ⟨92, _⟩ => ⟨S64, .f32⟩
  | .hbm, ⟨93, _⟩ => ⟨S64x1, .f32⟩
  | .hbm, ⟨94, _⟩ => ⟨S64x128, .f32⟩
  | .hbm, ⟨95, _⟩ => ⟨S64x128, .f32⟩
  | .hbm, ⟨96, _⟩ => ⟨S128x10, .f32⟩
  | .hbm, ⟨97, _⟩ => ⟨S64x10, .f32⟩
  | .hbm, ⟨98, _⟩ => ⟨S1x10, .f32⟩
  | .hbm, ⟨99, _⟩ => ⟨S64x10, .f32⟩
  | .hbm, ⟨100, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_c_6 : Ref sig .tc := ⟨.hbm, 77, rfl⟩
abbrev main_call2_v0 : Ref sig .tc := ⟨.hbm, 78, rfl⟩
abbrev main_call2_v1 : Ref sig .tc := ⟨.hbm, 79, rfl⟩
abbrev main_v52 : Ref sig .tc := ⟨.hbm, 80, rfl⟩
abbrev main_c_7 : Ref sig .tc := ⟨.hbm, 81, rfl⟩
abbrev main_v53 : Ref sig .tc := ⟨.hbm, 82, rfl⟩
abbrev main_v54 : Ref sig .tc := ⟨.hbm, 83, rfl⟩
abbrev main_c_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S_S50000 : S_.BroadcastsInDim S50000 (![] : Fin 0 → Fin S50000.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelPayload.lean ====
/-
  What the kernel body computes, at an entry. Each of the five kernels loads its input block, the whole weight matrix
  and the bias row, rounds the first two to bf16 (the identity over the extended reals), multiplies them into a zero
  accumulator, adds the bias row broadcast down the rows and, in the two update layers, takes the maximum with zero.
  Entry (p, q) of the stored block is therefore the inner product of row p of the input block with column q of the
  weight, plus entry q of the bias row.
-/
import proofs.«118678_j72232759984910_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Mpnn.KernelPayload

open Cert.KernelIdeal Cert.KernelIdeal.Gen Idealize.ShloMosaic Idealize.ShloMosaic.ValueIdx

/-! ## The message layers' product, `[5000, 128] · [128, 128]`

The contraction runs over the left operand's axis 1 and the right operand's axis 0. Each operand index the product
reads, at output entry `i` and contraction index `c`, is computed axis by axis: the kept axis carries the output's
coordinate, the contracted one carries `c`'s single coordinate. -/

/-- Left operand, axis 0: the output's row. -/
theorem msg_lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand, axis 1: the contraction coordinate. -/
theorem msg_lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- Right operand, axis 0: the contraction coordinate. -/
theorem msg_rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- Right operand, axis 1: the output's column. -/
theorem msg_rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at entry `(p, q)`: the inner product of row `p` with column `q`. -/
theorem msg_matmul_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact msg_lhs_0 _ _
    | ⟨1, _⟩ => exact (msg_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (msg_rhs_0 _ _).trans hk
    | ⟨1, _⟩ => exact msg_rhs_1 _ _)
  rw [el, er]

/-- Layer-1 message kernel (no rectifier), block `[5000, 128]`. -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply, msg_matmul_apply, broadcastTo_1b_ab_apply]
  simp only [truncf_apply, shapeCast_self]

/-! ## The update layers' product, `[5000, 256] · [256, 128]`

The same computation for the wider left operand: the contraction now has 256 terms. -/

/-- Left operand, axis 0: the output's row. -/
theorem upd_lhs_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Left operand, axis 1: the contraction coordinate. -/
theorem upd_lhs_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
/-- Right operand, axis 0: the contraction coordinate. -/
theorem upd_rhs_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
/-- Right operand, axis 1: the output's column. -/
theorem upd_rhs_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into the zero accumulator, at entry `(p, q)`: the inner product of row `p` with column `q`. -/
theorem upd_matmul_apply (a : FVec Ideal S5000x256 .bf16) (b : FVec Ideal S256x128 .bf16) (p : Fin 5000) (q : Fin 128) :
    matmul dot_S5000x256_S256x128_S5000x128_1_0_0_1_n_n none a b (constant (F := Ideal) S5000x128 .f32 0x00000000#32) (ix2 p q)
      = ∑ k : Fin 256, a (ix2 p k) * b (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun ax => Fin.ext (by
    match ax with
    | ⟨0, _⟩ => exact upd_lhs_0 _ _
    | ⟨1, _⟩ => exact (upd_lhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun ax => Fin.ext (by
    match ax with
    | ⟨0, _⟩ => exact (upd_rhs_0 _ _).trans hk
    | ⟨1, _⟩ => exact upd_rhs_1 _ _)
  rw [el, er]

/-- Layer-1 update kernel (rectifier), block `[5000, 256]`. -/
theorem pay1_apply (x0 : Vec Ideal S5000x256 .f32) (x1 : Vec Ideal S256x128 .f32) (x2 : Vec Ideal S1x128 .f32)
    (p : Fin 5000) (q : Fin 128) :
    k1_pay1 (F := Ideal) x0 x1 x2 (ix2 p q)
      = max ((∑ k : Fin 256, x0 (ix2 p k) * x1 (ix2 k q)) + x2 (ix2 (0 : Fin 1) q)) 0 := by
  unfold k1_pay1
  rw [maximumf_apply, broadcast_apply, addf_apply, upd_matmul_apply, broadcastTo_1b_ab_apply]
  simp only [truncf_apply, shapeCast_self]
  show max _ (Ideal.ofBits .f32 0x00000000#32) = _
  rw [Ideal.ofBits_zero_f32]

/-- Layer-2 message kernel (no rectifier), block `[5000, 128]`. -/
theorem pay2_apply (x0 : Vec Ideal S5000x128 .f32) (x1 : Vec Ideal S128x128 .f32) (x2 : Vec Ideal S1x128 .f32)
    (p : Fin 5000) (q : Fin 128) :
    k2_pay1 (F := Ideal) x0 x1 x2 (ix2 p q) = (∑ k : Fin 128, x0 (ix2 p k) * x1 (ix2 k q)) + x2 (ix2 (0 : Fin 1) q) := by
  unfold k2_pay1
  rw [addf_apply, msg_matmul_apply, broadcastTo_1b_ab_apply]
  simp only [truncf_apply, shapeCast_self]

/-- Layer-2 update kernel (rectifier), block `[5000, 256]`. -/
theorem pay3_apply (x0 : Vec Ideal S5000x256 .f32) (x1 : Vec Ideal S256x128 .f32) (x2 : Vec Ideal S1x128 .f32)
    (p : Fin 5000) (q : Fin 128) :
    k3_pay1 (F := Ideal) x0 x1 x2 (ix2 p q)
      = max ((∑ k : Fin 256, x0 (ix2 p k) * x1 (ix2 k q)) + x2 (ix2 (0 : Fin 1) q)) 0 := by
  unfold k3_pay1
  rw [maximumf_apply, broadcast_apply, addf_apply, upd_matmul_apply, broadcastTo_1b_ab_apply]
  simp only [truncf_apply, shapeCast_self]
  show max _ (Ideal.ofBits .f32 0x00000000#32) = _
  rw [Ideal.ofBits_zero_f32]

/-! ## The classifier's product, `[64, 128] · [128, 10]`

The same computation at the classifier's shapes: 64 rows, 10 columns, 128 terms. -/

/-- Left operand, axis 0: the output's row. -/
theorem cls_lhs_0 (i : S64x10.Idx) (c : dot_S64x128_S128x10_S64x10_1_0_0_1_n_n.contr.Idx) :
    (dot_S64x128_S128x10_S64x10_1_0_0_1_n_n.lhsIdx i c 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
/-- Left operand, axis 1: the contraction coordinate. -/
theorem cls_lhs_1 (i : S64x10.Idx) (c : dot_S64x128_S128x10_S64x10_1_0_0_1_n_n.contr.Idx) :
    (dot_S64x128_S128x10_S64x10_1_0_0_1_n_n.lhsIdx i c 1).val = (c ⟨0, by decide⟩).val :=
  dot_S64x128_S128x10_S64x10_1_0_0_1_n_n.lhsIdx_val_of_single rfl i c
/-- Right operand, axis 0: the contraction coordinate. -/
theorem cls_rhs_0 (i : S64x10.Idx) (c : dot_S64x128_S128x10_S64x10_1_0_0_1_n_n.contr.Idx) :
    (dot_S64x128_S128x10_S64x10_1_0_0_1_n_n.rhsIdx i c 0).val = (c ⟨0, by decide⟩).val :=
  dot_S64x128_S128x10_S64x10_1_0_0_1_n_n.rhsIdx_val_of_single rfl i c
/-- Right operand, axis 1: the output's column. -/
theorem cls_rhs_1 (i : S64x10.Idx) (c : dot_S64x128_S128x10_S64x10_1_0_0_1_n_n.contr.Idx) :
    (dot_S64x128_S128x10_S64x10_1_0_0_1_n_n.rhsIdx i c 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The product into the zero accumulator, at entry `(p, q)`: the inner product of row `p` with column `q`. -/
theorem cls_matmul_apply (a : FVec Ideal S64x128 .bf16) (b : FVec Ideal S128x10 .bf16) (p : Fin 64) (q : Fin 10) :
    matmul dot_S64x128_S128x10_S64x10_1_0_0_1_n_n none a b (constant (F := Ideal) S64x10 .f32 0x00000000#32) (ix2 p q)
      = ∑ k : Fin 128, a (ix2 p k) * b (ix2 k q) := by
  simp only [matmul]
  rw [Ideal.matmul_constant_zero_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 p q) ((contrEquiv1 dot_S64x128_S128x10_S64x10_1_0_0_1_n_n 128 rfl rfl).symm k) = ix2 p k := funext fun ax => Fin.ext (by
    match ax with
    | ⟨0, _⟩ => exact cls_lhs_0 _ _
    | ⟨1, _⟩ => exact (cls_lhs_1 _ _).trans hk)
  have er : dot_S64x128_S128x10_S64x10_1_0_0_1_n_n.rhsIdx (ix2 p q) ((contrEquiv1 dot_S64x128_S128x10_S64x10_1_0_0_1_n_n 128 rfl rfl).symm k) = ix2 k q := funext fun ax => Fin.ext (by
    match ax with
    | ⟨0, _⟩ => exact (cls_rhs_0 _ _).trans hk
    | ⟨1, _⟩ => exact cls_rhs_1 _ _)
  rw [el, er]

/-- The classifier kernel (no rectifier), one block `[64, 128]`. -/
theorem pay4_apply (x0 : Vec Ideal S64x128 .f32) (x1 : Vec Ideal S128x10 .f32) (x2 : Vec Ideal S1x10 .f32)
    (p : Fin 64) (q : Fin 10) :
    k4_pay1 (F := Ideal) x0 x1 x2 (ix2 p q) = (∑ k : Fin 128, x0 (ix2 p k) * x1 (ix2 k q)) + x2 (ix2 (0 : Fin 1) q) := by
  unfold k4_pay1
  rw [addf_apply, cls_matmul_apply, broadcastTo_1b_ab_apply]
  simp only [truncf_apply, shapeCast_self]

end Cert.Mpnn.KernelPayload

end
-- ==== Proof.LibDenseRows.lean ====
/-
  A dense layer over the extended reals, and taking rows of it.

  PART 1. A dense layer as ONE function of its operands: entry (r, j) of the result is the inner product of row r of
  the input with column j of the weight matrix, plus entry j of the bias (`affine`); followed by the rectifier
  `max · 0` it is `affineRelu`. A dense layer reads its input row by row (`affine_rows`).

  PART 2. The gather "take rows": operand `[N, C]`, one start index per result row, result `[E, C]`. Result entry
  (e, j) is the operand's entry (ρ e, j), where ρ e is the start index stored for e, read as a signed integer and
  clamped into the operand's rows (`gather_rows_apply`). So the gather is precomposition with a map on rows, and a
  dense layer commutes with it (`gather_affine`): rows taken from a dense layer's result are the dense layer of the
  rows taken from its input — over the extended reals with no finiteness needed, both sides being the same sums of
  the same products. A printed program's gather record with these dimension numbers is `rowDims` at its literal
  sizes by `rfl`.

  Everything here is generic in the sizes and in the index width, and imports only the library.
-/
import Idealize.ShloMosaic.PureOps.Ideal
import Idealize.ShloMosaic.Lib.ValueIdx

noncomputable section

namespace Cert.Mpnn

open Idealize.ShloMosaic Idealize.ShloMosaic.ValueIdx

/-- The dense layer: `(x · w)(r, j) + b j`, the product a sum over the `K` shared coordinates. -/
def affine {M K N : Nat} (x : (⟨2, ![M, K]⟩ : Shape).Idx → EReal) (w : (⟨2, ![K, N]⟩ : Shape).Idx → EReal)
    (b : Fin N → EReal) : (⟨2, ![M, N]⟩ : Shape).Idx → EReal :=
  fun i => (∑ k : Fin K, x (ix2 ⟨(i 0).val, idx2_lt0 i⟩ k) * w (ix2 k ⟨(i 1).val, idx2_lt1 i⟩))
    + b ⟨(i 1).val, idx2_lt1 i⟩

/-- The dense layer followed by the rectifier `max · 0`. -/
def affineRelu {M K N : Nat} (x : (⟨2, ![M, K]⟩ : Shape).Idx → EReal) (w : (⟨2, ![K, N]⟩ : Shape).Idx → EReal)
    (b : Fin N → EReal) : (⟨2, ![M, N]⟩ : Shape).Idx → EReal :=
  fun i => max (affine x w b i) 0

theorem affine_apply {M K N : Nat} (x : (⟨2, ![M, K]⟩ : Shape).Idx → EReal) (w : (⟨2, ![K, N]⟩ : Shape).Idx → EReal)
    (b : Fin N → EReal) (r : Fin M) (j : Fin N) :
    affine x w b (ix2 r j) = (∑ k : Fin K, x (ix2 r k) * w (ix2 k j)) + b j := rfl

theorem affineRelu_apply {M K N : Nat} (x : (⟨2, ![M, K]⟩ : Shape).Idx → EReal) (w : (⟨2, ![K, N]⟩ : Shape).Idx → EReal)
    (b : Fin N → EReal) (r : Fin M) (j : Fin N) :
    affineRelu x w b (ix2 r j) = max ((∑ k : Fin K, x (ix2 r k) * w (ix2 k j)) + b j) 0 := rfl

/-- A dense layer reads only ROWS of its input: if row `ρ e` of `x` is row `e` of `y` for every `e`, then row
    `ρ e` of the layer of `x` is row `e` of the layer of `y`. This is why taking rows (a gather along the first
    axis) before or after a dense layer gives the same array. -/
theorem affine_rows {M M' K N : Nat} (x : (⟨2, ![M, K]⟩ : Shape).Idx → EReal) (y : (⟨2, ![M', K]⟩ : Shape).Idx → EReal)
    (w : (⟨2, ![K, N]⟩ : Shape).Idx → EReal) (b : Fin N → EReal) (ρ : Fin M' → Fin M)
    (h : ∀ (e : Fin M') (k : Fin K), y (ix2 e k) = x (ix2 (ρ e) k)) (e : Fin M') (j : Fin N) :
    affine y w b (ix2 e j) = affine x w b (ix2 (ρ e) j) := by
  rw [affine_apply, affine_apply]
  congr 1
  exact Finset.sum_congr rfl fun k _ => by rw [h e k]

/-! ## Taking rows -/

/-- The dimension numbers of "take rows": operand `[N, C]`, one start index per result row (`[E, 1]`), result
    `[E, C]`; the row axis is collapsed and indexed, the column axis is the offset axis with its full extent. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand row that result row `e` reads: its start index, signed, clamped into `[0, N − 1]`. -/
def gatherRow {N E w : Nat} (hN : 0 < N) (idx : IVec ⟨2, ![E, 1]⟩ w) (e : Fin E) : Fin N :=
  ⟨min (idx (ix2 e (0 : Fin 1))).toInt.toNat (N - 1), by omega⟩

/-- On the row axis the operand coordinate is the clamped start alone: that axis is collapsed, so it has no offset
    coordinate, and there are no batching axes. The start is read at the start-indices index `(e, 0)`, the result
    row's own coordinate followed by the only position of the index vector, and clamped to `N - 1` (the slice there
    has size one). -/
private theorem rowDims_axis0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (j : Fin C) :
    (rowDims N E C wf).start (ix2 e j) idx 0 + (rowDims N E C wf).batchCoord (ix2 e j) 0
      + (rowDims N E C wf).offCoord (ix2 e j) 0 = (gatherRow hN idx e).val := by
  have hmem : (0 : Fin 2) ∈ (rowDims N E C wf).startIndexMap := List.mem_singleton.mpr rfl
  have hb : (rowDims N E C wf).batchCoord (ix2 e j) 0 = 0 :=
    GatherDims.batchCoord_eq_zero _ _ _ List.not_mem_nil
  have ho : (rowDims N E C wf).offCoord (ix2 e j) 0 = 0 :=
    GatherDims.offCoord_eq_zero _ _ _ fun h => ((GatherDims.mem_sKept _ _).mp h).1 (List.mem_singleton.mpr rfl)
  have hread : (rowDims N E C wf).siIdx (ix2 e j)
      ⟨List.idxOf (0 : Fin 2) (rowDims N E C wf).startIndexMap, List.idxOf_lt_length_iff.2 hmem⟩
      = ix2 e (0 : Fin 1) := by
    funext b
    refine Fin.ext ?_
    match b with
    | ⟨0, _⟩ => rfl
    | ⟨1, _⟩ => rfl
  simp only [hb, ho, Nat.add_zero]
  unfold GatherDims.start
  rw [dif_pos hmem, hread]
  rfl

/-- On the column axis the operand coordinate is the offset coordinate alone: the axis is not in the start index
    map, so its start is zero; it is the only kept operand axis, and the result's only offset axis is its column
    axis, so the offset coordinate is the result's column. -/
private theorem rowDims_axis1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (j : Fin C) :
    (rowDims N E C wf).start (ix2 e j) idx 1 + (rowDims N E C wf).batchCoord (ix2 e j) 1
      + (rowDims N E C wf).offCoord (ix2 e j) 1 = j.val := by
  have hne : ¬((1 : Fin 2) = 0) := fun h => Nat.one_ne_zero (congrArg Fin.val h)
  have hnot : (1 : Fin 2) ∉ (rowDims N E C wf).startIndexMap := fun h => hne (List.mem_singleton.mp h)
  have hs : (rowDims N E C wf).start (ix2 e j) idx 1 = 0 := by
    unfold GatherDims.start
    rw [dif_neg hnot]
  have hb : (rowDims N E C wf).batchCoord (ix2 e j) 1 = 0 :=
    GatherDims.batchCoord_eq_zero _ _ _ List.not_mem_nil
  have hk : (1 : Fin 2) ∈ (rowDims N E C wf).sKept :=
    (GatherDims.mem_sKept _ _).mpr ⟨fun h => hne (List.mem_singleton.mp h), List.not_mem_nil⟩
  simp only [hs, hb, Nat.zero_add]
  unfold GatherDims.offCoord
  rw [dif_pos hk]
  rfl

/-- The gather at entry `(e, j)` is the operand at `(gatherRow e, j)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (gatherRow hN idx e) j) := by
  unfold Host.gather
  congr 1
  funext a
  refine Fin.ext ?_
  match a with
  | ⟨0, _⟩ => exact rowDims_axis0 hN wf idx e j
  | ⟨1, _⟩ => exact rowDims_axis1 wf idx e j

/-- Rows taken from a dense layer's result are the dense layer of the rows taken from its input. -/
theorem gather_affine {N E K C w : Nat} (hN : 0 < N)
    (wfK : GatherDims.WF ⟨2, ![N, K]⟩ ⟨2, ![E, 1]⟩ ⟨2, ![E, K]⟩ [1] [0] [] [0] [] 1 ![1, K])
    (wfC : GatherDims.WF ⟨2, ![N, C]⟩ ⟨2, ![E, 1]⟩ ⟨2, ![E, C]⟩ [1] [0] [] [0] [] 1 ![1, C])
    (x : (⟨2, ![N, K]⟩ : Shape).Idx → EReal) (wt : (⟨2, ![K, C]⟩ : Shape).Idx → EReal) (b : Fin C → EReal)
    (idx : IVec ⟨2, ![E, 1]⟩ w) :
    Host.gather (rowDims N E C wfC) (affine x wt b) idx = affine (Host.gather (rowDims N E K wfK) x idx) wt b := by
  funext i
  obtain ⟨e, j, rfl⟩ : ∃ (e : Fin E) (j : Fin C), i = ix2 e j := ⟨_, _, eq_ix2 i⟩
  rw [gather_rows_apply hN wfC]
  exact (affine_rows x _ wt b (gatherRow hN idx) (fun e k => gather_rows_apply hN wfK x idx e k) e j).symm

end Cert.Mpnn

end
-- ==== Proof.RegionValue0.lean ====
/-
  Region 0: what its output array holds after the run. Layer 1's message transform of every node.
  The region's grid cuts the rows into blocks; at each grid point the body stores the dense layer of that point's
  input block, which is the same rows of the dense layer of the whole input array (a dense layer reads its input row
  by row, and the weight and bias windows are the whole arrays at every point); the output's blocks tile the rows, so
  the array ends holding the dense layer of the arrays the region found.
-/
import proofs.«118678_j72232759984910_1_alg».proof.Proof.Gen.KernelIdeal.Frame
import proofs.«118678_j72232759984910_1_alg».proof.Proof.KernelPayload
import proofs.«118678_j72232759984910_1_alg».proof.Proof.LibDenseRows
import Idealize.ShloMosaic.Lib.Pipeline.Value
import Idealize.ShloMosaic.Lib.ValueIdx

set_option maxRecDepth 16384

noncomputable section

namespace Cert.Mpnn.Region0

open Cert.KernelIdeal Cert.KernelIdeal.Gen Cert.Mpnn
open Idealize.ShloMosaic Idealize.ShloMosaic.TcCoe Idealize.ShloMosaic.ValueIdx Idealize.SL.Sem
open Idealize.ShloMosaic.Pipeline (Dat Cfg Window)

/-- The zero offsets of a whole-buffer access, as the constant function. -/
private theorem zero_off : (![0, 0] : Fin 2 → Nat) = fun _ => 0 := funext fun a => by fin_cases a <;> rfl

/-- The printed index maps over the grid: the input's and the output's row-block index is the point's number, every
    other block index is zero (the weight and bias windows are the whole arrays at every point). -/
private theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An index of the output array is in point `t`'s block iff each coordinate is in the block's range on its axis. -/
private theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- The output's blocks tile the rows: row `r` is in the block of point `r / 5000`, which writes it back. -/
private theorem covered (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  have htv : t.val = (i 0).val / 5000 := rfl
  obtain ⟨-, -, -, -, -, -, e0, e1⟩ := index_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

section Blocks

variable (V : (c : Dev nD) → (b : Ref sig .tc) → Buf (Elt Ideal) ((c : Thread nD τ).loc b)) (c : Dev nD)

/-- Row `p` of the input block at point `t` is row `5000 t + p` of the input array. -/
private theorem input_block_apply (t : Fin cfg0.N) (p : Fin 5000) (k : Fin 128) (r : Fin 50000)
    (hr : r.val = t.val * 5000 + p.val) :
    (iblk0 (F := Ideal) V c 0 t : Vec Ideal S5000x128 .f32) (ix2 p k)
      = (V c main_arg0 : S50000x128.Idx → EReal) (ix2 r k) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight window's block is the whole weight array at every point. -/
private theorem weight_block_apply (t : Fin cfg0.N) (k : Fin 128) (q : Fin 128) :
    (iblk0 (F := Ideal) V c 1 t : Vec Ideal S128x128 .f32) (ix2 k q)
      = (V c main_v4 : S128x128.Idx → EReal) (ix2 k q) := by
  obtain ⟨-, -, e0, e1, -⟩ := index_facts t
  unfold iblk0
  rw [View.read_apply]
  show V c main_v4 _ = V c main_v4 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- The bias window's block is the whole bias row at every point. -/
private theorem bias_block_apply (t : Fin cfg0.N) (q : Fin 128) :
    (iblk0 (F := Ideal) V c 2 t : Vec Ideal S1x128 .f32) (ix2 (0 : Fin 1) q)
      = (V c main_v5 : S1x128.Idx → EReal) (ix2 (0 : Fin 1) q) := by
  obtain ⟨-, -, -, -, e0, e1, -⟩ := index_facts t
  unfold iblk0
  rw [View.read_apply]
  show V c main_v5 _ = V c main_v5 _
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- The array the region is to leave: the dense layer of the arrays it found. -/
private abbrev G : S50000x128.Idx → EReal :=
  affine (M := 50000) (K := 128) (N := 128) (V c main_arg0) (V c main_v4) (fun j => V c main_v5 (ix2 (0 : Fin 1) j))

/-- WHAT POINT `t` WRITES BACK is block `t` of the dense layer of the whole arrays: entry `(p, q)` of the stored block is
    the inner product of row `p` of the input block, which is row `5000 t + p` of the input array, with column `q` of
    the weight array, plus entry `q` of the bias row — entry `(5000 t + p, q)` of the layer, which is where the
    output's block puts it. -/
private theorem flushed_eq (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero zero_off]
  simp only [View.ld_unit_zero (S := S5000x128) zero_off, View.ld_unit_zero (S := S128x128) zero_off,
    View.ld_unit_zero (S := S1x128) zero_off]
  funext j
  obtain ⟨p, q, rfl⟩ : ∃ (p : Fin 5000) (q : Fin 128), j = ix2 p q := ⟨j 0, j 1, eq_ix2 j⟩
  have hN : cfg0.N = 10 := N_0
  have ht : t.val < 10 := hN ▸ t.isLt
  obtain ⟨-, -, -, -, -, -, e0, e1⟩ := index_facts t
  have hemb : ((cfg0.win 3).blk t).view.emb (ix2 p q)
      = (ix2 (⟨t.val * 5000 + p.val, by omega⟩ : Fin 50000) q : S50000x128.Idx) := by
    funext a
    apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [View.read_apply, hemb]
  show k0_pay1 (F := Ideal) (iblk0 V c 0 t) (iblk0 V c 1 t) (iblk0 V c 2 t) (ix2 p q)
    = affine (M := 50000) (K := 128) (N := 128) (V c main_arg0) (V c main_v4) (fun j => V c main_v5 (ix2 (0 : Fin 1) j)) (ix2 _ q)
  rw [KernelPayload.pay0_apply (iblk0 V c 0 t) (iblk0 V c 1 t) (iblk0 V c 2 t) p q, affine_apply, bias_block_apply V c t q]
  congr 1
  exact Finset.sum_congr rfl fun k _ => by
    rw [input_block_apply V c t p k ⟨t.val * 5000 + p.val, by omega⟩ rfl, weight_block_apply V c t k q]

end Blocks

/-- The array region 0 leaves in its output, as a function of the arrays it found in its three input windows
    (the contents `V` of the core's buffers when the region is entered). -/
theorem value (V : (c : Dev nD) → (b : Ref sig .tc) → Buf (Elt Ideal) ((c : Thread nD τ).loc b)) (c : Dev nD) :
    (dat0 (F := Ideal) V c).arrAt 3 cfg0.N
      = affine (M := 50000) (K := 128) (N := 128) (V c main_arg0) (V c main_v4) (fun j => V c main_v5 (ix2 (0 : Fin 1) j)) :=
  (dat0 (F := Ideal) V c).arrAt_eq_of_cover 3 (G V c) (fun t _ => flushed_eq V c t) covered

end Cert.Mpnn.Region0

end
-- ==== Proof.RegionValue1.lean ====
/-
  Region 1: what its output array holds after the run. Layer 1's update of every node, with its rectifier.
  The region's grid cuts the rows into blocks; at each grid point the body stores the dense layer of that point's
  input block, which is the same rows of the dense layer of the whole input array (a dense layer reads its input row
  by row, and the weight and bias windows are the whole arrays at every point); the output's blocks tile the rows, so
  the array ends holding the dense layer of the arrays the region found.
-/
import proofs.«118678_j72232759984910_1_alg».proof.Proof.Gen.KernelIdeal.Frame
import proofs.«118678_j72232759984910_1_alg».proof.Proof.KernelPayload
import proofs.«118678_j72232759984910_1_alg».proof.Proof.LibDenseRows
import Idealize.ShloMosaic.Lib.Pipeline.Value
import Idealize.ShloMosaic.Lib.ValueIdx

set_option maxRecDepth 16384

noncomputable section

namespace Cert.Mpnn.Region1

open Cert.KernelIdeal Cert.KernelIdeal.Gen Cert.Mpnn
open Idealize.ShloMosaic Idealize.ShloMosaic.TcCoe Idealize.ShloMosaic.ValueIdx Idealize.SL.Sem
open Idealize.ShloMosaic.Pipeline (Dat Cfg Window)

/-- The zero offsets of a whole-buffer access, as a constant function. -/
private theorem hz : (![0, 0] : Fin 2 → Nat) = fun _ => 0 := funext fun a => by fin_cases a <;> rfl

/-- The four windows' block indices at grid point `t`, decided over the ten points: the input and output windows
    sit at block row `t`; the weight and bias windows at block (0, 0), the whole arrays. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the body's stored block: if row `p` of the input block is row `r` of the array `X`, and the weight
    and bias blocks are the arrays `Wt` and `B`, then entry `(p, q)` of the block is entry `(r, q)` of the rectified
    dense layer of `X`, `Wt`, `B` (a dense layer reads its input one row at a time). -/
private theorem block_value (x0 : Vec Ideal S5000x256 .f32) (x1 : Vec Ideal S256x128 .f32) (x2 : Vec Ideal S1x128 .f32)
    (X : S50000x256.Idx → EReal) (Wt : S256x128.Idx → EReal) (B : S1x128.Idx → EReal)
    (r : Fin 50000) (p : Fin 5000) (q : Fin 128)
    (h0 : ∀ k : Fin 256, x0 (ix2 p k) = X (ix2 r k))
    (h1 : ∀ (k : Fin 256) (j : Fin 128), x1 (ix2 k j) = Wt (ix2 k j))
    (h2 : ∀ j : Fin 128, x2 (ix2 (0 : Fin 1) j) = B (ix2 (0 : Fin 1) j)) :
    k1_pay1 (F := Ideal) x0 x1 x2 (ix2 p q)
      = affineRelu (M := 50000) (K := 256) (N := 128) X Wt (fun j => B (ix2 (0 : Fin 1) j)) (ix2 r q) := by
  rw [KernelPayload.pay1_apply, affineRelu_apply, h2]
  congr 2
  exact Finset.sum_congr rfl fun k _ => by rw [h0, h1]

/-- What grid point `t` writes back is block `t` of the rectified dense layer of the three arrays: entry `(p, q)` of
    the block sits at row `5000 t + p`, column `q` of the output array; the input block's row `p` is row `5000 t + p`
    of the input array, and the weight and bias blocks are the whole arrays. -/
private theorem flushed_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal)
      (affineRelu (M := 50000) (K := 256) (N := 128) (V c main_v17) (V c main_v18) (fun j => V c main_v19 (ix2 (0 : Fin 1) j))) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  have ht : t.val < 10 := by have h : t.val < cfg1.N := t.isLt; have hN : cfg1.N = 10 := N_1; omega
  have hr : t.val * 5000 + p.val < 50000 := by have := p.isLt; omega
  show k1_pay1 (F := Ideal) (iblk1 V c 0 t) (iblk1 V c 1 t) (iblk1 V c 2 t) (ix2 p q)
    = affineRelu (M := 50000) (K := 256) (N := 128) (V c main_v17) (V c main_v18) (fun j => V c main_v19 (ix2 (0 : Fin 1) j)) (((cfg1.win 3).blk t).view.emb (ix2 p q))
  -- where entry (p, q) of the output block sits in the output array
  have hemb : ((cfg1.win 3).blk t).view.emb (ix2 p q) = ix2 (⟨t.val * 5000 + p.val, hr⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hemb]
  refine block_value (iblk1 V c 0 t) (iblk1 V c 1 t) (iblk1 V c 2 t) (V c main_v17) (V c main_v18) (V c main_v19) ⟨t.val * 5000 + p.val, hr⟩ p q ?_ ?_ ?_
  · -- the input block's row p is row 5000 t + p of the input array
    intro k
    show V c main_v17 (((cfg1.win 0).blk t).view.emb (ix2 p k)) = V c main_v17 (ix2 (⟨t.val * 5000 + p.val, hr⟩ : Fin 50000) k)
    refine congrArg (V c main_v17) ?_
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  · -- the weight block is the whole weight array
    intro k j
    show V c main_v18 (((cfg1.win 1).blk t).view.emb (ix2 k j)) = V c main_v18 (ix2 k j)
    refine congrArg (V c main_v18) ?_
    funext a; apply Fin.ext
    match a with
    | ⟨0, _⟩ => show win1_1.index t (0 : Fin 2) * 256 + 1 * k.val = k.val; omega
    | ⟨1, _⟩ => show win1_1.index t (1 : Fin 2) * 128 + 1 * j.val = j.val; omega
  · -- the bias block is the whole bias row
    intro j
    show V c main_v19 (((cfg1.win 2).blk t).view.emb (ix2 (0 : Fin 1) j)) = V c main_v19 (ix2 (0 : Fin 1) j)
    refine congrArg (V c main_v19) ?_
    funext a; apply Fin.ext
    match a with
    | ⟨0, _⟩ => show win1_2.index t (0 : Fin 2) * 1 + 1 * (0 : Fin 1).val = (0 : Fin 1).val; omega
    | ⟨1, _⟩ => show win1_2.index t (1 : Fin 2) * 128 + 1 * j.val = j.val; omega

/-- An index of the output array is in point `t`'s block iff each coordinate is in the block's range on its axis. -/
private theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v20).slice (win1_3.rect t)).set ↔ _
  rw [View.set_slice_whole, Rect.mem_set_unit]
  exact Iff.rfl

/-- The output's blocks tile the rows: row `r` is in the block of point `r / 5000`, and every point writes back. -/
private theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have hlt : (i 0).val / 5000 < cfg1.N := by omega
  obtain ⟨-, -, -, -, -, -, e30, e31⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, hlt⟩ (1 : Fin 2) * 128 ≤ (i 1).val ∧ (i 1).val < win1_3.index ⟨(i 0).val / 5000, hlt⟩ (1 : Fin 2) * 128 + 128
    rw [e31]
    omega

/-- The array region 1 leaves in its output, as a function of the arrays it found in its three input windows
    (the contents `V` of the core's buffers when the region is entered). -/
theorem value (V : (c : Dev nD) → (b : Ref sig .tc) → Buf (Elt Ideal) ((c : Thread nD τ).loc b)) (c : Dev nD) :
    (dat1 (F := Ideal) V c).arrAt 3 cfg1.N
      = affineRelu (M := 50000) (K := 256) (N := 128) (V c main_v17) (V c main_v18) (fun j => V c main_v19 (ix2 (0 : Fin 1) j)) := by
  exact (dat1 (F := Ideal) V c).arrAt_eq_of_cover 3 _ (fun t _ => flushed_eq V c t) covered

end Cert.Mpnn.Region1

end
-- ==== Proof.RegionValue2.lean ====
/-
  Region 2: what its output array holds after the run. Layer 2's message transform of every node.
  The region's grid cuts the rows into blocks; at each grid point the body stores the dense layer of that point's
  input block, which is the same rows of the dense layer of the whole input array (a dense layer reads its input row
  by row, and the weight and bias windows are the whole arrays at every point); the output's blocks tile the rows, so
  the array ends holding the dense layer of the arrays the region found.
-/
import proofs.«118678_j72232759984910_1_alg».proof.Proof.Gen.KernelIdeal.Frame
import proofs.«118678_j72232759984910_1_alg».proof.Proof.KernelPayload
import proofs.«118678_j72232759984910_1_alg».proof.Proof.LibDenseRows
import Idealize.ShloMosaic.Lib.Pipeline.Value
import Idealize.ShloMosaic.Lib.ValueIdx

set_option maxRecDepth 16384

noncomputable section

namespace Cert.Mpnn.Region2

open Cert.KernelIdeal Cert.KernelIdeal.Gen Cert.Mpnn
open Idealize.ShloMosaic Idealize.ShloMosaic.TcCoe Idealize.ShloMosaic.ValueIdx Idealize.SL.Sem
open Idealize.ShloMosaic.Pipeline (Dat Cfg Window)

/-- The zero offsets of a whole-buffer access, as the constant function. -/
private theorem zero_off : (![0, 0] : Fin 2 → Nat) = fun _ => 0 := funext fun a => by fin_cases a <;> rfl

/-- The printed index maps over the grid: the input's and the output's row-block index is the point's number, every
    other block index is zero (the weight and bias windows are the whole arrays at every point). -/
private theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An index of the output array is in point `t`'s block iff each coordinate is in the block's range on its axis. -/
private theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v23).slice (win2_3.rect t)).set ↔ _
  rw [View.set_slice_whole, Rect.mem_set_unit]
  exact Iff.rfl

/-- The output's blocks tile the rows: row `r` is in the block of point `r / 5000`, which writes it back. -/
private theorem covered (i : S50000x128.Idx) :
    ∃ t : Fin cfg2.N, (cfg2.win 3).flush t = true ∧ i ∈ ((cfg2.win 3).blk t).view.set := by
  have hN : cfg2.N = 10 := N_2
  have hi0 : (i 0).val < 50000 := (i 0).isLt
  have hi1 : (i 1).val < 128 := (i 1).isLt
  let t : Fin cfg2.N := ⟨(i 0).val / 5000, by rw [hN]; omega⟩
  have htv : t.val = (i 0).val / 5000 := rfl
  obtain ⟨-, -, -, -, -, -, e0, e1⟩ := index_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

section Blocks

variable (V : (c : Dev nD) → (b : Ref sig .tc) → Buf (Elt Ideal) ((c : Thread nD τ).loc b)) (c : Dev nD)

/-- Row `p` of the input block at point `t` is row `5000 t + p` of the input array. -/
private theorem input_block_apply (t : Fin cfg2.N) (p : Fin 5000) (k : Fin 128) (r : Fin 50000)
    (hr : r.val = t.val * 5000 + p.val) :
    (iblk2 (F := Ideal) V c 0 t : Vec Ideal S5000x128 .f32) (ix2 p k)
      = (V c main_v20 : S50000x128.Idx → EReal) (ix2 r k) := by
  obtain ⟨e0, e1, -⟩ := index_facts t
  unfold iblk2
  rw [View.read_apply]
  show V c main_v20 _ = V c main_v20 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The weight window's block is the whole weight array at every point. -/
private theorem weight_block_apply (t : Fin cfg2.N) (k : Fin 128) (q : Fin 128) :
    (iblk2 (F := Ideal) V c 1 t : Vec Ideal S128x128 .f32) (ix2 k q)
      = (V c main_v21 : S128x128.Idx → EReal) (ix2 k q) := by
  obtain ⟨-, -, e0, e1, -⟩ := index_facts t
  unfold iblk2
  rw [View.read_apply]
  show V c main_v21 _ = V c main_v21 _
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- The bias window's block is the whole bias row at every point. -/
private theorem bias_block_apply (t : Fin cfg2.N) (q : Fin 128) :
    (iblk2 (F := Ideal) V c 2 t : Vec Ideal S1x128 .f32) (ix2 (0 : Fin 1) q)
      = (V c main_v22 : S1x128.Idx → EReal) (ix2 (0 : Fin 1) q) := by
  obtain ⟨-, -, -, -, e0, e1, -⟩ := index_facts t
  unfold iblk2
  rw [View.read_apply]
  show V c main_v22 _ = V c main_v22 _
  congr 1
  funext a
  apply Fin.ext
  match a with
  | ⟨0, _⟩ => show win2_2.index t (0 : Fin 2) * 1 + 1 * (0 : Fin 1).val = (0 : Fin 1).val; omega
  | ⟨1, _⟩ => show win2_2.index t (1 : Fin 2) * 128 + 1 * q.val = q.val; omega

/-- The array the region is to leave: the dense layer of the arrays it found. -/
private abbrev G : S50000x128.Idx → EReal :=
  affine (M := 50000) (K := 128) (N := 128) (V c main_v20) (V c main_v21) (fun j => V c main_v22 (ix2 (0 : Fin 1) j))

/-- WHAT POINT `t` WRITES BACK is block `t` of the dense layer of the whole arrays: entry `(p, q)` of the stored block is
    the inner product of row `p` of the input block, which is row `5000 t + p` of the input array, with column `q` of
    the weight array, plus entry `q` of the bias row — entry `(5000 t + p, q)` of the layer, which is where the
    output's block puts it. -/
private theorem flushed_eq (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero zero_off]
  simp only [View.ld_unit_zero (S := S5000x128) zero_off, View.ld_unit_zero (S := S128x128) zero_off,
    View.ld_unit_zero (S := S1x128) zero_off]
  funext j
  obtain ⟨p, q, rfl⟩ : ∃ (p : Fin 5000) (q : Fin 128), j = ix2 p q := ⟨j 0, j 1, eq_ix2 j⟩
  have hN : cfg2.N = 10 := N_2
  have ht : t.val < 10 := hN ▸ t.isLt
  obtain ⟨-, -, -, -, -, -, e0, e1⟩ := index_facts t
  have hemb : ((cfg2.win 3).blk t).view.emb (ix2 p q)
      = (ix2 (⟨t.val * 5000 + p.val, by omega⟩ : Fin 50000) q : S50000x128.Idx) := by
    funext a
    apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  rw [View.read_apply, hemb]
  show k2_pay1 (F := Ideal) (iblk2 V c 0 t) (iblk2 V c 1 t) (iblk2 V c 2 t) (ix2 p q)
    = affine (M := 50000) (K := 128) (N := 128) (V c main_v20) (V c main_v21) (fun j => V c main_v22 (ix2 (0 : Fin 1) j)) (ix2 _ q)
  rw [KernelPayload.pay2_apply (iblk2 V c 0 t) (iblk2 V c 1 t) (iblk2 V c 2 t) p q, affine_apply, bias_block_apply V c t q]
  congr 1
  exact Finset.sum_congr rfl fun k _ => by
    rw [input_block_apply V c t p k ⟨t.val * 5000 + p.val, by omega⟩ rfl, weight_block_apply V c t k q]

end Blocks

/-- The array region 2 leaves in its output, as a function of the arrays it found in its three input windows
    (the contents `V` of the core's buffers when the region is entered). -/
theorem value (V : (c : Dev nD) → (b : Ref sig .tc) → Buf (Elt Ideal) ((c : Thread nD τ).loc b)) (c : Dev nD) :
    (dat2 (F := Ideal) V c).arrAt 3 cfg2.N
      = affine (M := 50000) (K := 128) (N := 128) (V c main_v20) (V c main_v21) (fun j => V c main_v22 (ix2 (0 : Fin 1) j)) :=
  (dat2 (F := Ideal) V c).arrAt_eq_of_cover 3 (G V c) (fun t _ => flushed_eq V c t) covered

end Cert.Mpnn.Region2

end
-- ==== Proof.RegionValue3.lean ====
/-
  Region 3: what its output array holds after the run. Layer 2's update of every node, with its rectifier.
  The region's grid cuts the rows into blocks; at each grid point the body stores the dense layer of that point's
  input block, which is the same rows of the dense layer of the whole input array (a dense layer reads its input row
  by row, and the weight and bias windows are the whole arrays at every point); the output's blocks tile the rows, so
  the array ends holding the dense layer of the arrays the region found.
-/
import proofs.«118678_j72232759984910_1_alg».proof.Proof.Gen.KernelIdeal.Frame
import proofs.«118678_j72232759984910_1_alg».proof.Proof.KernelPayload
import proofs.«118678_j72232759984910_1_alg».proof.Proof.LibDenseRows
import Idealize.ShloMosaic.Lib.Pipeline.Value
import Idealize.ShloMosaic.Lib.ValueIdx

set_option maxRecDepth 16384

noncomputable section

namespace Cert.Mpnn.Region3

open Cert.KernelIdeal Cert.KernelIdeal.Gen Cert.Mpnn
open Idealize.ShloMosaic Idealize.ShloMosaic.TcCoe Idealize.ShloMosaic.ValueIdx Idealize.SL.Sem
open Idealize.ShloMosaic.Pipeline (Dat Cfg Window)

/-- The zero offsets of a whole-buffer access, as a constant function. -/
private theorem hz : (![0, 0] : Fin 2 → Nat) = fun _ => 0 := funext fun a => by fin_cases a <;> rfl

/-- The four windows' block indices at grid point `t`, decided over the ten points: the input and output windows
    sit at block row `t`; the weight and bias windows at block (0, 0), the whole arrays. -/
private theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of the body's stored block: if row `p` of the input block is row `r` of the array `X`, and the weight
    and bias blocks are the arrays `Wt` and `B`, then entry `(p, q)` of the block is entry `(r, q)` of the rectified
    dense layer of `X`, `Wt`, `B` (a dense layer reads its input one row at a time). -/
private theorem block_value (x0 : Vec Ideal S5000x256 .f32) (x1 : Vec Ideal S256x128 .f32) (x2 : Vec Ideal S1x128 .f32)
    (X : S50000x256.Idx → EReal) (Wt : S256x128.Idx → EReal) (B : S1x128.Idx → EReal)
    (r : Fin 50000) (p : Fin 5000) (q : Fin 128)
    (h0 : ∀ k : Fin 256, x0 (ix2 p k) = X (ix2 r k))
    (h1 : ∀ (k : Fin 256) (j : Fin 128), x1 (ix2 k j) = Wt (ix2 k j))
    (h2 : ∀ j : Fin 128, x2 (ix2 (0 : Fin 1) j) = B (ix2 (0 : Fin 1) j)) :
    k3_pay1 (F := Ideal) x0 x1 x2 (ix2 p q)
      = affineRelu (M := 50000) (K := 256) (N := 128) X Wt (fun j => B (ix2 (0 : Fin 1) j)) (ix2 r q) := by
  rw [KernelPayload.pay3_apply, affineRelu_apply, h2]
  congr 2
  exact Finset.sum_congr rfl fun k _ => by rw [h0, h1]

/-- What grid point `t` writes back is block `t` of the rectified dense layer of the three arrays: entry `(p, q)` of
    the block sits at row `5000 t + p`, column `q` of the output array; the input block's row `p` is row `5000 t + p`
    of the input array, and the weight and bias blocks are the whole arrays. -/
private theorem flushed_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal)
      (affineRelu (M := 50000) (K := 256) (N := 128) (V c main_v34) (V c main_v35) (fun j => V c main_v36 (ix2 (0 : Fin 1) j))) := by
  show (cfg3.win 3).cut (grid3.coords t) ((dat3 V c).after 3 t) = _
  rw [after3_3]
  unfold out3_3
  rw [View.canon_unit_zero hz]
  simp only [View.ld_unit_zero (S := S5000x256) hz, View.ld_unit_zero (S := S256x128) hz, View.ld_unit_zero (S := S1x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  have ht : t.val < 10 := by have h : t.val < cfg3.N := t.isLt; have hN : cfg3.N = 10 := N_3; omega
  have hr : t.val * 5000 + p.val < 50000 := by have := p.isLt; omega
  show k3_pay1 (F := Ideal) (iblk3 V c 0 t) (iblk3 V c 1 t) (iblk3 V c 2 t) (ix2 p q)
    = affineRelu (M := 50000) (K := 256) (N := 128) (V c main_v34) (V c main_v35) (fun j => V c main_v36 (ix2 (0 : Fin 1) j)) (((cfg3.win 3).blk t).view.emb (ix2 p q))
  -- where entry (p, q) of the output block sits in the output array
  have hemb : ((cfg3.win 3).blk t).view.emb (ix2 p q) = ix2 (⟨t.val * 5000 + p.val, hr⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  rw [hemb]
  refine block_value (iblk3 V c 0 t) (iblk3 V c 1 t) (iblk3 V c 2 t) (V c main_v34) (V c main_v35) (V c main_v36) ⟨t.val * 5000 + p.val, hr⟩ p q ?_ ?_ ?_
  · -- the input block's row p is row 5000 t + p of the input array
    intro k
    show V c main_v34 (((cfg3.win 0).blk t).view.emb (ix2 p k)) = V c main_v34 (ix2 (⟨t.val * 5000 + p.val, hr⟩ : Fin 50000) k)
    refine congrArg (V c main_v34) ?_
    funext a; apply Fin.ext
    match a with
    | ⟨0, _⟩ => show win3_0.index t (0 : Fin 2) * 5000 + 1 * p.val = t.val * 5000 + p.val; omega
    | ⟨1, _⟩ => show win3_0.index t (1 : Fin 2) * 256 + 1 * k.val = k.val; omega
  · -- the weight block is the whole weight array
    intro k j
    show V c main_v35 (((cfg3.win 1).blk t).view.emb (ix2 k j)) = V c main_v35 (ix2 k j)
    refine congrArg (V c main_v35) ?_
    funext a; apply Fin.ext
    match a with
    | ⟨0, _⟩ => show win3_1.index t (0 : Fin 2) * 256 + 1 * k.val = k.val; omega
    | ⟨1, _⟩ => show win3_1.index t (1 : Fin 2) * 128 + 1 * j.val = j.val; omega
  · -- the bias block is the whole bias row
    intro j
    show V c main_v36 (((cfg3.win 2).blk t).view.emb (ix2 (0 : Fin 1) j)) = V c main_v36 (ix2 (0 : Fin 1) j)
    refine congrArg (V c main_v36) ?_
    funext a; apply Fin.ext
    match a with
    | ⟨0, _⟩ => show win3_2.index t (0 : Fin 2) * 1 + 1 * (0 : Fin 1).val = (0 : Fin 1).val; omega
    | ⟨1, _⟩ => show win3_2.index t (1 : Fin 2) * 128 + 1 * j.val = j.val; omega

/-- An index of the output array is in point `t`'s block iff each coordinate is in the block's range on its axis. -/
private theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v37).slice (win3_3.rect t)).set ↔ _
  rw [View.set_slice_whole, Rect.mem_set_unit]
  exact Iff.rfl

/-- The output's blocks tile the rows: row `r` is in the block of point `r / 5000`, and every point writes back. -/
private theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have hlt : (i 0).val / 5000 < cfg3.N := by omega
  obtain ⟨-, -, -, -, -, -, e30, e31⟩ := idx_facts ⟨(i 0).val / 5000, hlt⟩
  refine ⟨⟨(i 0).val / 5000, hlt⟩, flush3_3 _, ?_⟩
  rw [mem_blk]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win3_3.index ⟨(i 0).val / 5000, hlt⟩ (1 : Fin 2) * 128 ≤ (i 1).val ∧ (i 1).val < win3_3.index ⟨(i 0).val / 5000, hlt⟩ (1 : Fin 2) * 128 + 128
    rw [e31]
    omega

/-- The array region 3 leaves in its output, as a function of the arrays it found in its three input windows
    (the contents `V` of the core's buffers when the region is entered). -/
theorem value (V : (c : Dev nD) → (b : Ref sig .tc) → Buf (Elt Ideal) ((c : Thread nD τ).loc b)) (c : Dev nD) :
    (dat3 (F := Ideal) V c).arrAt 3 cfg3.N
      = affineRelu (M := 50000) (K := 256) (N := 128) (V c main_v34) (V c main_v35) (fun j => V c main_v36 (ix2 (0 : Fin 1) j)) := by
  exact (dat3 (F := Ideal) V c).arrAt_eq_of_cover 3 _ (fun t _ => flushed_eq V c t) covered

end Cert.Mpnn.Region3

end
-- ==== Proof.RegionValue4.lean ====
/-
  Region 4: what its output array holds after the run. The classifier on the pooled graphs (a grid of one point).
  The region's grid cuts the rows into blocks; at each grid point the body stores the dense layer of that point's
  input block, which is the same rows of the dense layer of the whole input array (a dense layer reads its input row
  by row, and the weight and bias windows are the whole arrays at every point); the output's blocks tile the rows, so
  the array ends holding the dense layer of the arrays the region found.
-/
import proofs.«118678_j72232759984910_1_alg».proof.Proof.Gen.KernelIdeal.Frame
import proofs.«118678_j72232759984910_1_alg».proof.Proof.KernelPayload
import proofs.«118678_j72232759984910_1_alg».proof.Proof.LibDenseRows
import Idealize.ShloMosaic.Lib.Pipeline.Value
import Idealize.ShloMosaic.Lib.ValueIdx

set_option maxRecDepth 16384

noncomputable section

namespace Cert.Mpnn.Region4

open Cert.KernelIdeal Cert.KernelIdeal.Gen Cert.Mpnn
open Idealize.ShloMosaic Idealize.ShloMosaic.TcCoe Idealize.ShloMosaic.ValueIdx Idealize.SL.Sem
open Idealize.ShloMosaic.Pipeline (Dat Cfg Window)

/-- The zero offset vector of a whole-buffer access, as a constant function. -/
private theorem zero_off : (![0, 0] : Fin 2 → Nat) = fun _ => 0 := funext fun a => by fin_cases a <;> rfl

/-- The printed index maps over the grid's one point: every window's block is the block at the origin. -/
private theorem origin_blocks : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The payload at an entry is the dense layer's entry, for any blocks that agree entry by entry with arrays
    A, W, B (the input, the weight, the bias row). -/
private theorem payload_eq_affine (x0 : Vec Ideal S64x128 .f32) (x1 : Vec Ideal S128x10 .f32) (x2 : Vec Ideal S1x10 .f32)
    (A : S64x128.Idx → EReal) (W : S128x10.Idx → EReal) (B : S1x10.Idx → EReal)
    (h0 : ∀ (p : Fin 64) (k : Fin 128), x0 (ix2 p k) = A (ix2 p k))
    (h1 : ∀ (k : Fin 128) (q : Fin 10), x1 (ix2 k q) = W (ix2 k q))
    (h2 : ∀ q : Fin 10, x2 (ix2 (0 : Fin 1) q) = B (ix2 (0 : Fin 1) q))
    (p : Fin 64) (q : Fin 10) :
    k4_pay1 (F := Ideal) x0 x1 x2 (ix2 p q)
      = affine (M := 64) (K := 128) (N := 10) A W (fun j => B (ix2 (0 : Fin 1) j)) (ix2 p q) := by
  rw [KernelPayload.pay4_apply, affine_apply]
  congr 1
  · exact Finset.sum_congr rfl fun k _ => by rw [h0, h1]
  · exact h2 q

/-- An index of the output array is in a point's block iff each coordinate is in the block's range on its axis. -/
private theorem mem_blk (t : Fin cfg4.N) (i : S64x10.Idx) :
    i ∈ ((cfg4.win 3).blk t).view.set ↔ ∀ a : Fin 2, win4_3.index t a * S64x10.size a ≤ (i a).val ∧ (i a).val < win4_3.index t a * S64x10.size a + S64x10.size a := by
  show i ∈ ((View.whole main_v57).slice (win4_3.rect t)).set ↔ _
  rw [View.set_slice_whole, Rect.mem_set_unit]
  exact Iff.rfl

/-- The grid's one point writes back, and its block is the whole output array. -/
private theorem covered (i : S64x10.Idx) :
    ∃ t : Fin cfg4.N, (cfg4.win 3).flush t = true ∧ i ∈ ((cfg4.win 3).blk t).view.set := by
  obtain ⟨-, -, -, -, -, -, e0, e1⟩ := origin_blocks t4_0
  have hi0 : (i 0).val < 64 := (i 0).isLt
  have hi1 : (i 1).val < 10 := (i 1).isLt
  refine ⟨t4_0, flush4_3 t4_0, ?_⟩
  rw [mem_blk]
  intro a
  match a with
  | ⟨0, _⟩ => show win4_3.index t4_0 (0 : Fin 2) * 64 ≤ (i 0).val ∧ (i 0).val < win4_3.index t4_0 (0 : Fin 2) * 64 + 64; omega
  | ⟨1, _⟩ => show win4_3.index t4_0 (1 : Fin 2) * 10 ≤ (i 1).val ∧ (i 1).val < win4_3.index t4_0 (1 : Fin 2) * 10 + 10; omega

section
variable (V : (c : Dev nD) → (b : Ref sig .tc) → Buf (Elt Ideal) ((c : Thread nD τ).loc b)) (c : Dev nD)

/-- The input window's block at a point holds the input array's entries: block (0, 0) of extent [64, 128]. -/
private theorem in_block_apply (t : Fin cfg4.N) (p : Fin 64) (k : Fin 128) :
    (iblk4 (F := Ideal) V c 0 t : Vec Ideal S64x128 .f32) (ix2 p k) = (V c main_v54 : S64x128.Idx → EReal) (ix2 p k) := by
  obtain ⟨e0, e1, -, -, -, -, -, -⟩ := origin_blocks t
  unfold iblk4
  rw [View.read_apply]
  show V c main_v54 (((cfg4.win 0).blk t).view.emb (ix2 p k)) = V c main_v54 (ix2 p k)
  refine congrArg _ (funext fun a => Fin.ext ?_)
  match a with
  | ⟨0, _⟩ => show win4_0.index t (0 : Fin 2) * 64 + 1 * p.val = p.val; omega
  | ⟨1, _⟩ => show win4_0.index t (1 : Fin 2) * 128 + 1 * k.val = k.val; omega

/-- The weight window's block at a point is the whole weight array: block (0, 0) of extent [128, 10]. -/
private theorem weight_block_apply (t : Fin cfg4.N) (k : Fin 128) (q : Fin 10) :
    (iblk4 (F := Ideal) V c 1 t : Vec Ideal S128x10 .f32) (ix2 k q) = (V c main_v55 : S128x10.Idx → EReal) (ix2 k q) := by
  obtain ⟨-, -, e0, e1, -, -, -, -⟩ := origin_blocks t
  unfold iblk4
  rw [View.read_apply]
  show V c main_v55 (((cfg4.win 1).blk t).view.emb (ix2 k q)) = V c main_v55 (ix2 k q)
  refine congrArg _ (funext fun a => Fin.ext ?_)
  match a with
  | ⟨0, _⟩ => show win4_1.index t (0 : Fin 2) * 128 + 1 * k.val = k.val; omega
  | ⟨1, _⟩ => show win4_1.index t (1 : Fin 2) * 10 + 1 * q.val = q.val; omega

/-- The bias window's block at a point is the whole bias row: block (0, 0) of extent [1, 10]. -/
private theorem bias_block_apply (t : Fin cfg4.N) (q : Fin 10) :
    (iblk4 (F := Ideal) V c 2 t : Vec Ideal S1x10 .f32) (ix2 (0 : Fin 1) q) = (V c main_v56 : S1x10.Idx → EReal) (ix2 (0 : Fin 1) q) := by
  obtain ⟨-, -, -, -, e0, e1, -, -⟩ := origin_blocks t
  unfold iblk4
  rw [View.read_apply]
  show V c main_v56 (((cfg4.win 2).blk t).view.emb (ix2 (0 : Fin 1) q)) = V c main_v56 (ix2 (0 : Fin 1) q)
  refine congrArg _ (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 10 + 1 * q.val = q.val; omega

/-- The dense layer of the arrays the region finds: what the output array is to end holding. -/
private abbrev layer : S64x10.Idx → EReal :=
  affine (M := 64) (K := 128) (N := 10) (V c main_v54) (V c main_v55) (fun j => V c main_v56 (ix2 (0 : Fin 1) j))

/-- What a point writes back is its block of the dense layer: the stored payload at an entry is the layer's entry
    (the three input blocks hold the arrays' own entries), and the output block's entry (p, q) is the array's. -/
private theorem flushed_eq (t : Fin cfg4.N) :
    (dat4 (F := Ideal) V c).flushed 3 t = ((cfg4.win 3).blk t).view.read (Elt Ideal) (layer V c) := by
  show (cfg4.win 3).cut (grid4.coords t) ((dat4 (F := Ideal) V c).after 3 t) = _
  rw [after4_3]
  unfold out4_3
  rw [View.canon_unit_zero zero_off]
  simp only [View.ld_unit_zero (S := S64x128) zero_off, View.ld_unit_zero (S := S128x10) zero_off, View.ld_unit_zero (S := S1x10) zero_off]
  obtain ⟨-, -, -, -, -, -, e0, e1⟩ := origin_blocks t
  funext j
  obtain ⟨p, q, rfl⟩ : ∃ (p : Fin 64) (q : Fin 10), j = ix2 p q := ⟨j 0, j 1, eq_ix2 j⟩
  show k4_pay1 (F := Ideal) (iblk4 V c 0 t) (iblk4 V c 1 t) (iblk4 V c 2 t) (ix2 p q)
      = layer V c (((cfg4.win 3).blk t).view.emb (ix2 p q))
  have hemb : ((cfg4.win 3).blk t).view.emb (ix2 p q) = (ix2 p q : S64x10.Idx) := by
    funext a; apply Fin.ext
    match a with
    | ⟨0, _⟩ => show win4_3.index t (0 : Fin 2) * 64 + 1 * p.val = p.val; omega
    | ⟨1, _⟩ => show win4_3.index t (1 : Fin 2) * 10 + 1 * q.val = q.val; omega
  rw [hemb]
  exact payload_eq_affine _ _ _ _ _ _ (in_block_apply V c t) (weight_block_apply V c t) (bias_block_apply V c t) p q

end

/-- The array region 4 leaves in its output, as a function of the arrays it found in its three input windows
    (the contents `V` of the core's buffers when the region is entered). -/
theorem value (V : (c : Dev nD) → (b : Ref sig .tc) → Buf (Elt Ideal) ((c : Thread nD τ).loc b)) (c : Dev nD) :
    (dat4 (F := Ideal) V c).arrAt 3 cfg4.N
      = affine (M := 64) (K := 128) (N := 10) (V c main_v54) (V c main_v55) (fun j => V c main_v56 (ix2 (0 : Fin 1) j)) := by
  exact (dat4 (F := Ideal) V c).arrAt_eq_of_cover 3 (layer V c) (fun t _ => flushed_eq V c t) covered

end Cert.Mpnn.Region4

end
-- ==== Proof.HostAffine.lean ====
/-
  The reference's dense layers. On the host a dense layer is a `dot_general` contracting the input's columns with
  the transposed weight's rows, plus the bias broadcast first to a row and then down the rows (and, for the two
  update layers, a maximum with a zero array). Over the extended reals the `dot_general` is the plain sum over the
  contracted coordinate, so each of these expressions is the function `affine` (or `affineRelu`) of its operands.
-/
import proofs.«118678_j72232759984910_1_alg».proof.ReferenceIdeal
import proofs.«118678_j72232759984910_1_alg».proof.Proof.Gen.ReferenceIdeal
import Idealize.ShloMosaic.PureOps.Ideal.Laws
import Idealize.ShloMosaic.Lib.ValueIdx
import Idealize.ShloMosaic.Lib.Pipeline.Value
import proofs.«118678_j72232759984910_1_alg».proof.Proof.LibDenseRows

noncomputable section

namespace Cert.Mpnn.HostAffine

open Cert.ReferenceIdeal Idealize.ShloMosaic Idealize.ShloMosaic.ValueIdx Cert.Mpnn
open Cert.ReferenceIdeal.Facts₀

/-! ### The per-edge layer: `[800000, 128] · [128, 128]`

The contraction index of the `dot_general` has one axis (the input's columns, the weight's rows). The four lemmas
below read the operands' indices coordinate by coordinate: the free coordinate comes from the output index, the
contracted one from the contraction index. -/

private theorem edges_lhs_row (i : S800000x128.Idx) (c : dot_S800000x128_S128x128_S800000x128_1_0_0_1_n_n.contr.Idx) :
    (dot_S800000x128_S128x128_S800000x128_1_0_0_1_n_n.lhsIdx i c 0).val = (i 0).val := by
  unfold DotDims.lhsIdx
  rw [dif_neg (show ¬(0 : Fin S800000x128.rank) ∈ dot_S800000x128_S128x128_S800000x128_1_0_0_1_n_n.lhsBatch by decide),
    dif_pos (show (0 : Fin S800000x128.rank) ∈ dot_S800000x128_S128x128_S800000x128_1_0_0_1_n_n.lhsNonContracting by decide)]
  rfl

private theorem edges_lhs_col (i : S800000x128.Idx) (c : dot_S800000x128_S128x128_S800000x128_1_0_0_1_n_n.contr.Idx) :
    (dot_S800000x128_S128x128_S800000x128_1_0_0_1_n_n.lhsIdx i c 1).val = (c ⟨0, by decide⟩).val :=
  dot_S800000x128_S128x128_S800000x128_1_0_0_1_n_n.lhsIdx_val_of_single rfl i c

private theorem edges_rhs_row (i : S800000x128.Idx) (c : dot_S800000x128_S128x128_S800000x128_1_0_0_1_n_n.contr.Idx) :
    (dot_S800000x128_S128x128_S800000x128_1_0_0_1_n_n.rhsIdx i c 0).val = (c ⟨0, by decide⟩).val :=
  dot_S800000x128_S128x128_S800000x128_1_0_0_1_n_n.rhsIdx_val_of_single rfl i c

private theorem edges_rhs_col (i : S800000x128.Idx) (c : dot_S800000x128_S128x128_S800000x128_1_0_0_1_n_n.contr.Idx) :
    (dot_S800000x128_S128x128_S800000x128_1_0_0_1_n_n.rhsIdx i c 1).val = (i 1).val := by
  unfold DotDims.rhsIdx
  rw [dif_neg (show ¬(1 : Fin S128x128.rank) ∈ dot_S800000x128_S128x128_S800000x128_1_0_0_1_n_n.rhsBatch by decide),
    dif_pos (show (1 : Fin S128x128.rank) ∈ dot_S800000x128_S128x128_S800000x128_1_0_0_1_n_n.rhsNonContracting by decide)]
  rfl

/-- Entry `(p, q)` of the product is the inner product of row `p` of the input with column `q` of the weight. -/
private theorem edges_dot (l : FVec Ideal S800000x128 .f32) (r : FVec Ideal S128x128 .f32) (p : Fin 800000) (q : Fin 128) :
    Host.dotGeneral dot_S800000x128_S128x128_S800000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S800000x128_S128x128_S800000x128_1_0_0_1_n_n 128 rfl rfl).symm]
  refine Finset.sum_congr rfl fun k _ => ?_
  have hk := ValueIdx.contrEquiv1_symm_val dot_S800000x128_S128x128_S800000x128_1_0_0_1_n_n 128 rfl rfl k
  have el : dot_S800000x128_S128x128_S800000x128_1_0_0_1_n_n.lhsIdx (ix2 p q) ((ValueIdx.contrEquiv1 dot_S800000x128_S128x128_S800000x128_1_0_0_1_n_n 128 rfl rfl).symm k) = ix2 p k :=
    funext fun a => Fin.ext (by
      match a with
      | ⟨0, _⟩ => exact edges_lhs_row _ _
      | ⟨1, _⟩ => exact (edges_lhs_col _ _).trans hk)
  have er : dot_S800000x128_S128x128_S800000x128_1_0_0_1_n_n.rhsIdx (ix2 p q) ((ValueIdx.contrEquiv1 dot_S800000x128_S128x128_S800000x128_1_0_0_1_n_n 128 rfl rfl).symm k) = ix2 k q :=
    funext fun a => Fin.ext (by
      match a with
      | ⟨0, _⟩ => exact (edges_rhs_row _ _).trans hk
      | ⟨1, _⟩ => exact edges_rhs_col _ _)
  rw [el, er]

/-- The bias, broadcast to a row and then down the `800000` rows, read at `(p, q)` is entry `q` of the bias. -/
private theorem edges_bias (b : FVec Ideal S128 .f32) (p : Fin 800000) (q : Fin 128) :
    broadcastInDim S800000x128 ![0, 1] bcast_S1x128_S800000x128_0_1 (broadcastInDim S1x128 ![1] bcast_S128_S1x128_1 b) (ix2 p q)
      = b (ix1 q) := by
  rw [broadcastInDim_apply _ bcast_S1x128_S800000x128_0_1 _ (ix2 p q) (ix2 ⟨0, Nat.one_pos⟩ q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 ⟨0, Nat.one_pos⟩ q) (ix1 q) (fun a => match a with
    | ⟨0, _⟩ => by show q.val = if (128 : Nat) = 1 then 0 else q.val; rw [if_neg (by decide)])

/-- The per-edge message layer: `[800000, 128] · [128, 128] + bias`. -/
theorem edges (l : FVec Ideal S800000x128 .f32) (r : FVec Ideal S128x128 .f32) (b : FVec Ideal S128 .f32) :
    addf (Host.dotGeneral dot_S800000x128_S128x128_S800000x128_1_0_0_1_n_n none l r)
        (broadcastInDim S800000x128 ![0, 1] bcast_S1x128_S800000x128_0_1 (broadcastInDim S1x128 ![1] bcast_S128_S1x128_1 b))
      = affine l r (fun j => b (ix1 j)) := by
  funext i
  obtain ⟨p, q, rfl⟩ : ∃ (p : Fin 800000) (q : Fin 128), i = ix2 p q := ⟨i 0, i 1, eq_ix2 i⟩
  rw [affine_apply, addf_apply, edges_dot, edges_bias]

/-! ### The per-node layer: `[50000, 256] · [256, 128]`

The same reading of the operands' indices for the update layer's `dot_general`, whose contracted coordinate
runs over the `256` columns of the concatenated node features. -/

private theorem nodes_lhs_row (i : S50000x128.Idx) (c : dot_S50000x256_S256x128_S50000x128_1_0_0_1_n_n.contr.Idx) :
    (dot_S50000x256_S256x128_S50000x128_1_0_0_1_n_n.lhsIdx i c 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl

private theorem nodes_lhs_col (i : S50000x128.Idx) (c : dot_S50000x256_S256x128_S50000x128_1_0_0_1_n_n.contr.Idx) :
    (dot_S50000x256_S256x128_S50000x128_1_0_0_1_n_n.lhsIdx i c 1).val = (c ⟨0, by decide⟩).val :=
  dot_S50000x256_S256x128_S50000x128_1_0_0_1_n_n.lhsIdx_val_of_single rfl i c

private theorem nodes_rhs_row (i : S50000x128.Idx) (c : dot_S50000x256_S256x128_S50000x128_1_0_0_1_n_n.contr.Idx) :
    (dot_S50000x256_S256x128_S50000x128_1_0_0_1_n_n.rhsIdx i c 0).val = (c ⟨0, by decide⟩).val :=
  dot_S50000x256_S256x128_S50000x128_1_0_0_1_n_n.rhsIdx_val_of_single rfl i c

private theorem nodes_rhs_col (i : S50000x128.Idx) (c : dot_S50000x256_S256x128_S50000x128_1_0_0_1_n_n.contr.Idx) :
    (dot_S50000x256_S256x128_S50000x128_1_0_0_1_n_n.rhsIdx i c 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- Entry `(p, q)` of the product is the inner product of row `p` of the node features with column `q` of the weight. -/
private theorem nodes_dot (l : FVec Ideal S50000x256 .f32) (r : FVec Ideal S256x128 .f32) (p : Fin 50000) (q : Fin 128) :
    Host.dotGeneral dot_S50000x256_S256x128_S50000x128_1_0_0_1_n_n none l r (ix2 p q)
      = ∑ k : Fin 256, l (ix2 p k) * r (ix2 k q) := by
  simp only [Host.dotGeneral]
  rw [Ideal.dotGeneral_apply,
    ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 p q)
      ((ValueIdx.contrEquiv1 dot_S50000x256_S256x128_S50000x128_1_0_0_1_n_n 256 rfl rfl).symm k) = ix2 p k :=
    funext fun a => Fin.ext (by
      match a with
      | ⟨0, _⟩ => exact nodes_lhs_row _ _
      | ⟨1, _⟩ => exact (nodes_lhs_col _ _).trans hk)
  have er : dot_S50000x256_S256x128_S50000x128_1_0_0_1_n_n.rhsIdx (ix2 p q)
      ((ValueIdx.contrEquiv1 dot_S50000x256_S256x128_S50000x128_1_0_0_1_n_n 256 rfl rfl).symm k) = ix2 k q :=
    funext fun a => Fin.ext (by
      match a with
      | ⟨0, _⟩ => exact (nodes_rhs_row _ _).trans hk
      | ⟨1, _⟩ => exact nodes_rhs_col _ _)
  rw [el, er]

/-- The bias, broadcast to a row and then down the `50000` rows, read at `(p, q)` is entry `q` of the bias. -/
private theorem nodes_bias (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply _ bcast_S1x128_S50000x128_0_1 _ (ix2 p q) (ix2 ⟨0, Nat.one_pos⟩ q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 ⟨0, Nat.one_pos⟩ q) (ix1 q) (fun a => match a with
    | ⟨0, _⟩ => by show q.val = if (128 : Nat) = 1 then 0 else q.val; rw [if_neg (by decide)])

/-- The rectifier's second operand is the scalar constant with all bits clear, broadcast to every entry: the number `0`. -/
private theorem nodes_zero (p : Fin 50000) (q : Fin 128) :
    broadcastInDim S50000x128 ![] bcast_S_S50000x128 (constant (F := Ideal) S_ .f32 0x00000000#32) (ix2 p q) = 0 := by
  rw [broadcastInDim_apply _ bcast_S_S50000x128 _ (ix2 p q) (fun a => a.elim0) (fun a => a.elim0), constant_apply]
  exact Ideal.ofBits_zero_f32

/-- The per-node update layer before its rectifier: `[50000, 256] · [256, 128] + bias`. -/
theorem nodes (l : FVec Ideal S50000x256 .f32) (r : FVec Ideal S256x128 .f32) (b : FVec Ideal S128 .f32) :
    addf (Host.dotGeneral dot_S50000x256_S256x128_S50000x128_1_0_0_1_n_n none l r)
        (broadcastInDim S50000x128 ![0, 1] bcast_S1x128_S50000x128_0_1 (broadcastInDim S1x128 ![1] bcast_S128_S1x128_1 b))
      = affine l r (fun j => b (ix1 j)) := by
  funext i
  obtain ⟨p, q, rfl⟩ : ∃ (p : Fin 50000) (q : Fin 128), i = ix2 p q := ⟨i 0, i 1, eq_ix2 i⟩
  rw [affine_apply, addf_apply, nodes_dot, nodes_bias]

/-- The per-node update layer with its rectifier (the maximum with the zero array). -/
theorem nodesRelu (l : FVec Ideal S50000x256 .f32) (r : FVec Ideal S256x128 .f32) (b : FVec Ideal S128 .f32) :
    maximumf (addf (Host.dotGeneral dot_S50000x256_S256x128_S50000x128_1_0_0_1_n_n none l r)
        (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = affineRelu l r (fun j => b (ix1 j)) := by
  funext i
  obtain ⟨p, q, rfl⟩ : ∃ (p : Fin 50000) (q : Fin 128), i = ix2 p q := ⟨i 0, i 1, eq_ix2 i⟩
  rw [affineRelu_apply, maximumf_apply, addf_apply, nodes_dot, nodes_bias, nodes_zero]

/-! ### The classifier: `[64, 128] · [128, 10]`

The same reading once more for the last layer, which maps the `128` pooled features of each graph to `10` classes. -/

private theorem graphs_lhs_row (i : S64x10.Idx) (c : dot_S64x128_S128x10_S64x10_1_0_0_1_n_n.contr.Idx) :
    (dot_S64x128_S128x10_S64x10_1_0_0_1_n_n.lhsIdx i c 0).val = (i 0).val := by
  unfold DotDims.lhsIdx
  rw [dif_neg (show ¬(0 : Fin S64x128.rank) ∈ dot_S64x128_S128x10_S64x10_1_0_0_1_n_n.lhsBatch by decide),
    dif_pos (show (0 : Fin S64x128.rank) ∈ dot_S64x128_S128x10_S64x10_1_0_0_1_n_n.lhsNonContracting by decide)]
  rfl

private theorem graphs_lhs_col (i : S64x10.Idx) (c : dot_S64x128_S128x10_S64x10_1_0_0_1_n_n.contr.Idx) :
    (dot_S64x128_S128x10_S64x10_1_0_0_1_n_n.lhsIdx i c 1).val = (c ⟨0, by decide⟩).val :=
  dot_S64x128_S128x10_S64x10_1_0_0_1_n_n.lhsIdx_val_of_single rfl i c

private theorem graphs_rhs_row (i : S64x10.Idx) (c : dot_S64x128_S128x10_S64x10_1_0_0_1_n_n.contr.Idx) :
    (dot_S64x128_S128x10_S64x10_1_0_0_1_n_n.rhsIdx i c 0).val = (c ⟨0, by decide⟩).val :=
  dot_S64x128_S128x10_S64x10_1_0_0_1_n_n.rhsIdx_val_of_single rfl i c

private theorem graphs_rhs_col (i : S64x10.Idx) (c : dot_S64x128_S128x10_S64x10_1_0_0_1_n_n.contr.Idx) :
    (dot_S64x128_S128x10_S64x10_1_0_0_1_n_n.rhsIdx i c 1).val = (i 1).val := by
  unfold DotDims.rhsIdx
  rw [dif_neg (show ¬(1 : Fin S128x10.rank) ∈ dot_S64x128_S128x10_S64x10_1_0_0_1_n_n.rhsBatch by decide),
    dif_pos (show (1 : Fin S128x10.rank) ∈ dot_S64x128_S128x10_S64x10_1_0_0_1_n_n.rhsNonContracting by decide)]
  rfl

/-- Entry `(p, q)` of the product is the inner product of graph `p`'s pooled features with column `q` of the weight. -/
private theorem graphs_dot (l : FVec Ideal S64x128 .f32) (r : FVec Ideal S128x10 .f32) (p : Fin 64) (q : Fin 10) :
    Host.dotGeneral dot_S64x128_S128x10_S64x10_1_0_0_1_n_n none l r (ix2 p q)
      = ∑ k : Fin 128, l (ix2 p k) * r (ix2 k q) := by
  simp only [Host.dotGeneral]
  rw [Ideal.dotGeneral_apply,
    ← Equiv.sum_comp (ValueIdx.contrEquiv1 dot_S64x128_S128x10_S64x10_1_0_0_1_n_n 128 rfl rfl).symm]
  refine Finset.sum_congr rfl fun k _ => ?_
  have hk := ValueIdx.contrEquiv1_symm_val dot_S64x128_S128x10_S64x10_1_0_0_1_n_n 128 rfl rfl k
  have el : dot_S64x128_S128x10_S64x10_1_0_0_1_n_n.lhsIdx (ix2 p q)
      ((ValueIdx.contrEquiv1 dot_S64x128_S128x10_S64x10_1_0_0_1_n_n 128 rfl rfl).symm k) = ix2 p k :=
    funext fun a => Fin.ext (by
      match a with
      | ⟨0, _⟩ => exact graphs_lhs_row _ _
      | ⟨1, _⟩ => exact (graphs_lhs_col _ _).trans hk)
  have er : dot_S64x128_S128x10_S64x10_1_0_0_1_n_n.rhsIdx (ix2 p q)
      ((ValueIdx.contrEquiv1 dot_S64x128_S128x10_S64x10_1_0_0_1_n_n 128 rfl rfl).symm k) = ix2 k q :=
    funext fun a => Fin.ext (by
      match a with
      | ⟨0, _⟩ => exact (graphs_rhs_row _ _).trans hk
      | ⟨1, _⟩ => exact graphs_rhs_col _ _)
  rw [el, er]

/-- The bias, broadcast to a row and then down the `64` rows, read at `(p, q)` is entry `q` of the bias. -/
private theorem graphs_bias (b : FVec Ideal S10 .f32) (p : Fin 64) (q : Fin 10) :
    broadcastInDim S64x10 ![0, 1] bcast_S1x10_S64x10_0_1 (broadcastInDim S1x10 ![1] bcast_S10_S1x10_1 b) (ix2 p q)
      = b (ix1 q) := by
  rw [broadcastInDim_apply _ bcast_S1x10_S64x10_0_1 _ (ix2 p q) (ix2 ⟨0, Nat.one_pos⟩ q) (fun a => match a with
    | ⟨0, _⟩ => by show 0 = if (1 : Nat) = 1 then 0 else p.val; rw [if_pos rfl]
    | ⟨1, _⟩ => by show q.val = if (10 : Nat) = 1 then 0 else q.val; rw [if_neg (by decide)])]
  exact broadcastInDim_apply _ bcast_S10_S1x10_1 b (ix2 ⟨0, Nat.one_pos⟩ q) (ix1 q) (fun a => match a with
    | ⟨0, _⟩ => by show q.val = if (10 : Nat) = 1 then 0 else q.val; rw [if_neg (by decide)])

/-- The classifier on the pooled graphs: `[64, 128] · [128, 10] + bias`. -/
theorem graphs (l : FVec Ideal S64x128 .f32) (r : FVec Ideal S128x10 .f32) (b : FVec Ideal S10 .f32) :
    addf (Host.dotGeneral dot_S64x128_S128x10_S64x10_1_0_0_1_n_n none l r)
        (broadcastInDim S64x10 ![0, 1] bcast_S1x10_S64x10_0_1 (broadcastInDim S1x10 ![1] bcast_S10_S1x10_1 b))
      = affine l r (fun j => b (ix1 j)) := by
  funext i
  obtain ⟨p, q, rfl⟩ : ∃ (p : Fin 64) (q : Fin 10), i = ix2 p q := ⟨i 0, i 1, eq_ix2 i⟩
  rw [affine_apply, addf_apply, graphs_dot, graphs_bias]

end Cert.Mpnn.HostAffine

end
-- ==== Proof.KernelChain.lean ====
/-
  The kernel program's buffers, boundary by boundary, against the reference's intermediate arrays.
  The kernel's @main alternates stretches of host operations with five dense-layer regions. Walking it from the
  launch: the row and column indices and the transposed weights are the same host operations in both programs; the
  first region leaves the dense layer of ALL nodes, of which the host then takes rows (the gather) — which is the
  dense layer of the rows taken from the nodes, the reference's per-edge messages; from there the scatter-addition
  and the concatenation are the same operations of equal operands, the second region's rectified dense layer is the
  reference's update, and so on through the second layer, the pooling (a scatter-addition over the graph ids divided
  by the counts, the same host operations in both programs) and the classifier. Each lemma below says: this buffer,
  at this boundary, holds that intermediate array of the reference, as a function of the thirteen arguments.
-/
import proofs.«118678_j72232759984910_1_alg».proof.Proof.Gen.KernelIdeal.Frame
import proofs.«118678_j72232759984910_1_alg».proof.Proof.Gen.ReferenceIdeal.Read
import proofs.«118678_j72232759984910_1_alg».proof.Proof.RegionValue0
import proofs.«118678_j72232759984910_1_alg».proof.Proof.RegionValue1
import proofs.«118678_j72232759984910_1_alg».proof.Proof.RegionValue2
import proofs.«118678_j72232759984910_1_alg».proof.Proof.RegionValue3
import proofs.«118678_j72232759984910_1_alg».proof.Proof.RegionValue4
import proofs.«118678_j72232759984910_1_alg».proof.Proof.HostAffine
import proofs.«118678_j72232759984910_1_alg».proof.Proof.LibDenseRows
import Idealize.ShloMosaic.Lib.StableHlo.Run
import Idealize.ShloMosaic.Lib.Pipeline.Value

set_option maxRecDepth 16384
noncomputable section
namespace Cert.Mpnn.Chain
open Cert.KernelIdeal Cert.KernelIdeal.Gen Cert.Mpnn
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg) (c : Dev nD)

abbrev A0 : S50000x128.Idx → EReal := m ((c : Thread nD τ).loc main_arg0)
abbrev A1 : S2x800000.Idx → BitVec 32 := m ((c : Thread nD τ).loc main_arg1)
abbrev A2 : S50000.Idx → BitVec 32 := m ((c : Thread nD τ).loc main_arg2)
abbrev A3 : S128x128.Idx → EReal := m ((c : Thread nD τ).loc main_arg3)
abbrev A4 : S128.Idx → EReal := m ((c : Thread nD τ).loc main_arg4)
abbrev A5 : S128x256.Idx → EReal := m ((c : Thread nD τ).loc main_arg5)
abbrev A6 : S128.Idx → EReal := m ((c : Thread nD τ).loc main_arg6)
abbrev A7 : S128x128.Idx → EReal := m ((c : Thread nD τ).loc main_arg7)
abbrev A8 : S128.Idx → EReal := m ((c : Thread nD τ).loc main_arg8)
abbrev A9 : S128x256.Idx → EReal := m ((c : Thread nD τ).loc main_arg9)
abbrev A10 : S128.Idx → EReal := m ((c : Thread nD τ).loc main_arg10)
abbrev A11 : S10x128.Idx → EReal := m ((c : Thread nD τ).loc main_arg11)
abbrev A12 : S10.Idx → EReal := m ((c : Thread nD τ).loc main_arg12)

/-- A bias stored as a one-row matrix, read at (0, q), is the bias at q. -/
theorem bias_row {N : Nat} (b : (⟨1, ![N]⟩ : Shape).Idx → EReal) (h : (⟨1, ![N]⟩ : Shape).ShapeCasts ⟨2, ![1, N]⟩) (q : Fin N) :
    shapeCast ⟨2, ![1, N]⟩ b h (ix2 (0 : Fin 1) q) = b (ix1 q) := by
  refine (shapeCast_addUnit_apply ![N] b h _).trans (congrArg b ?_)
  funext a
  match a with
  | ⟨0, _⟩ => rfl

theorem kgather_eq : gather_S50000x128_S800000x1_S800000x128_1_0_n_n_0_1_1128 = rowDims 50000 800000 128 Facts₀.gather_S50000x128_S800000x1_S800000x128_1_0_n_n_0_1_1128_wf := rfl
theorem rgather_eq : Cert.ReferenceIdeal.gather_S50000x128_S800000x1_S800000x128_1_0_n_n_0_1_1128 = rowDims 50000 800000 128 Facts₀.gather_S50000x128_S800000x1_S800000x128_1_0_n_n_0_1_1128_wf := rfl

/-! ## What each host stretch writes (a buffer outside the list is left as it was) -/

theorem hostOps0_writes : (hostOps0 : List (HloOp τ sig (Elt Ideal))).Forall fun op => op.writes ⊆
    (([main_v0, main_v1, main_v2, main_v3, main_v4, main_v5] : List (Ref sig .tc)).map (Proc.devRef (τ := τ) .tc)).toFinset := by
  simp [hostOps0, List.Forall, StableHlo.nullary_writes, StableHlo.unary_writes, StableHlo.binary_writes, StableHlo.ternary_writes, StableHlo.reshape_writes]
theorem hostOps1_writes : (hostOps1 : List (HloOp τ sig (Elt Ideal))).Forall fun op => op.writes ⊆
    (([main_c, main_v7, main_v8, main_c_0, main_v9, main_v10, main_v11, main_v12, main_v13, main_cst, main_v14, main_v15, main_v16, main_v17, main_v18, main_v19] : List (Ref sig .tc)).map (Proc.devRef (τ := τ) .tc)).toFinset := by
  simp [hostOps1, List.Forall, StableHlo.nullary_writes, StableHlo.unary_writes, StableHlo.binary_writes, StableHlo.ternary_writes, StableHlo.reshape_writes]
theorem hostOps2_writes : (hostOps2 : List (HloOp τ sig (Elt Ideal))).Forall fun op => op.writes ⊆
    (([main_v21, main_v22] : List (Ref sig .tc)).map (Proc.devRef (τ := τ) .tc)).toFinset := by
  simp [hostOps2, List.Forall, StableHlo.nullary_writes, StableHlo.unary_writes, StableHlo.binary_writes, StableHlo.ternary_writes, StableHlo.reshape_writes]
theorem hostOps3_writes : (hostOps3 : List (HloOp τ sig (Elt Ideal))).Forall fun op => op.writes ⊆
    (([main_c_1, main_v24, main_v25, main_c_2, main_v26, main_v27, main_v28, main_v29, main_v30, main_cst_3, main_v31, main_v32, main_v33, main_v34, main_v35, main_v36] : List (Ref sig .tc)).map (Proc.devRef (τ := τ) .tc)).toFinset := by
  simp [hostOps3, List.Forall, StableHlo.nullary_writes, StableHlo.unary_writes, StableHlo.binary_writes, StableHlo.ternary_writes, StableHlo.reshape_writes]
/-- The three stretches before the last region, as one line of operations. -/
abbrev hostOps4all : List (HloOp τ sig (Elt Ideal)) := hostOps4 ++ hostOps4_1 ++ hostOps4_2
theorem hostOps4all_writes : (hostOps4all : List (HloOp τ sig (Elt Ideal))).Forall fun op => op.writes ⊆
    (([main_cst_4, main_v38, main_v39, main_v40, main_c_5, main_v41, main_c_6, main_call0_v0, main_call0_v1, main_v42, main_c_7, main_v43, main_v44, main_c_8, main_v45, main_v46, main_v47, main_v48, main_c_9, main_v49, main_v50, main_v51, main_v52, main_v53, main_v54, main_v55, main_v56] : List (Ref sig .tc)).map (Proc.devRef (τ := τ) .tc)).toFinset := by
  simp [hostOps4all, hostOps4, hostOps4_1, hostOps4_2, List.Forall, StableHlo.nullary_writes, StableHlo.unary_writes, StableHlo.binary_writes, StableHlo.ternary_writes, StableHlo.reshape_writes]
theorem W11_eq : W11 m ρ c = StableHlo.after hostOps4all (W8 m ρ c) := rfl

theorem keep1 (b : Ref sig .tc) (hb : b ∉ ([main_v0, main_v1, main_v2, main_v3, main_v4, main_v5] : List (Ref sig .tc)) := by decide) :
    W1 m ρ c (Proc.devRef .tc b) = m ((c : Thread nD τ).loc b) :=
  StableHlo.after_of_writes_sub hostOps0 (W0 m ρ c) hostOps0_writes hb
theorem keep3 (b : Ref sig .tc) (hb : b ∉ ([main_c, main_v7, main_v8, main_c_0, main_v9, main_v10, main_v11, main_v12, main_v13, main_cst, main_v14, main_v15, main_v16, main_v17, main_v18, main_v19] : List (Ref sig .tc)) := by decide) :
    W3 m ρ c (Proc.devRef .tc b) = W2 m ρ c (Proc.devRef .tc b) :=
  StableHlo.after_of_writes_sub hostOps1 (W2 m ρ c) hostOps1_writes hb
theorem keep5 (b : Ref sig .tc) (hb : b ∉ ([main_v21, main_v22] : List (Ref sig .tc)) := by decide) :
    W5 m ρ c (Proc.devRef .tc b) = W4 m ρ c (Proc.devRef .tc b) :=
  StableHlo.after_of_writes_sub hostOps2 (W4 m ρ c) hostOps2_writes hb
theorem keep7 (b : Ref sig .tc) (hb : b ∉ ([main_c_1, main_v24, main_v25, main_c_2, main_v26, main_v27, main_v28, main_v29, main_v30, main_cst_3, main_v31, main_v32, main_v33, main_v34, main_v35, main_v36] : List (Ref sig .tc)) := by decide) :
    W7 m ρ c (Proc.devRef .tc b) = W6 m ρ c (Proc.devRef .tc b) :=
  StableHlo.after_of_writes_sub hostOps3 (W6 m ρ c) hostOps3_writes hb

/-- A buffer that no host operation writes and that is no window's array of a region still holds, at region 0's
    exit (and, by the lemmas after this one, at the exits of regions 1, 2 and 3), what the launch put there. -/
theorem arg_W2 (b : Ref sig .tc) (h0 : b ∉ ([main_v0, main_v1, main_v2, main_v3, main_v4, main_v5] : List (Ref sig .tc)) := by decide)
    (s0 : ∀ w, Pipeline.arrRef spec0 w ≠ b := by decide) : W2 m ρ c (Proc.devRef .tc b) = m ((c : Thread nD τ).loc b) :=
  (W2_of_ne m ρ c b s0).trans (keep1 m ρ c b h0)
theorem arg_W4 (b : Ref sig .tc) (h0 : b ∉ ([main_v0, main_v1, main_v2, main_v3, main_v4, main_v5] : List (Ref sig .tc)) := by decide)
    (s0 : ∀ w, Pipeline.arrRef spec0 w ≠ b := by decide) (h1 : b ∉ ([main_c, main_v7, main_v8, main_c_0, main_v9, main_v10, main_v11, main_v12, main_v13, main_cst, main_v14, main_v15, main_v16, main_v17, main_v18, main_v19] : List (Ref sig .tc)) := by decide)
    (s1 : ∀ w, Pipeline.arrRef spec1 w ≠ b := by decide) : W4 m ρ c (Proc.devRef .tc b) = m ((c : Thread nD τ).loc b) :=
  (W4_of_ne m ρ c b s1).trans ((keep3 m ρ c b h1).trans (arg_W2 m ρ c b h0 s0))
theorem arg_W6 (b : Ref sig .tc) (h0 : b ∉ ([main_v0, main_v1, main_v2, main_v3, main_v4, main_v5] : List (Ref sig .tc)) := by decide)
    (s0 : ∀ w, Pipeline.arrRef spec0 w ≠ b := by decide) (h1 : b ∉ ([main_c, main_v7, main_v8, main_c_0, main_v9, main_v10, main_v11, main_v12, main_v13, main_cst, main_v14, main_v15, main_v16, main_v17, main_v18, main_v19] : List (Ref sig .tc)) := by decide)
    (s1 : ∀ w, Pipeline.arrRef spec1 w ≠ b := by decide) (h2 : b ∉ ([main_v21, main_v22] : List (Ref sig .tc)) := by decide)
    (s2 : ∀ w, Pipeline.arrRef spec2 w ≠ b := by decide) : W6 m ρ c (Proc.devRef .tc b) = m ((c : Thread nD τ).loc b) :=
  (W6_of_ne m ρ c b s2).trans ((keep5 m ρ c b h2).trans (arg_W4 m ρ c b h0 s0 h1 s1))
theorem arg_W8 (b : Ref sig .tc) (h0 : b ∉ ([main_v0, main_v1, main_v2, main_v3, main_v4, main_v5] : List (Ref sig .tc)) := by decide)
    (s0 : ∀ w, Pipeline.arrRef spec0 w ≠ b := by decide) (h1 : b ∉ ([main_c, main_v7, main_v8, main_c_0, main_v9, main_v10, main_v11, main_v12, main_v13, main_cst, main_v14, main_v15, main_v16, main_v17, main_v18, main_v19] : List (Ref sig .tc)) := by decide)
    (s1 : ∀ w, Pipeline.arrRef spec1 w ≠ b := by decide) (h2 : b ∉ ([main_v21, main_v22] : List (Ref sig .tc)) := by decide)
    (s2 : ∀ w, Pipeline.arrRef spec2 w ≠ b := by decide) (h3 : b ∉ ([main_c_1, main_v24, main_v25, main_c_2, main_v26, main_v27, main_v28, main_v29, main_v30, main_cst_3, main_v31, main_v32, main_v33, main_v34, main_v35, main_v36] : List (Ref sig .tc)) := by decide)
    (s3 : ∀ w, Pipeline.arrRef spec3 w ≠ b := by decide) : W8 m ρ c (Proc.devRef .tc b) = m ((c : Thread nD τ).loc b) :=
  (W8_of_ne m ρ c b s3).trans ((keep7 m ρ c b h3).trans (arg_W6 m ρ c b h0 s0 h1 s1 h2 s2))

/-! ## Before region 0: the edge rows and columns, the first weight transposed, the first bias as a row -/
theorem W1_v1 : W1 m ρ c (Proc.devRef .tc main_v1) = val_main_v1 (F := Ideal) (A1 m c) := by
  show StableHlo.after hostOps0 (W0 m ρ c) (Proc.devRef .tc main_v1) = _
  after_results
  rfl
theorem W1_v3 : W1 m ρ c (Proc.devRef .tc main_v3) = val_main_v3 (F := Ideal) (A1 m c) := by
  show StableHlo.after hostOps0 (W0 m ρ c) (Proc.devRef .tc main_v3) = _
  after_results
  rfl
theorem W1_v4 : W1 m ρ c (Proc.devRef .tc main_v4) = val_main_v11 (F := Ideal) (A3 m c) := by
  show StableHlo.after hostOps0 (W0 m ρ c) (Proc.devRef .tc main_v4) = _
  after_results
  rfl
theorem W1_v5 : W1 m ρ c (Proc.devRef .tc main_v5) = shapeCast S1x128 (A4 m c) Facts₀.shapeCasts_S128_S1x128 := by
  show StableHlo.after hostOps0 (W0 m ρ c) (Proc.devRef .tc main_v5) = _
  after_results
  rfl

/-! ## Region 0: the first message layer of every node -/
theorem W2_v6 : W2 m ρ c (Proc.devRef .tc main_v6)
    = affine (M := 50000) (K := 128) (N := 128) (A0 m c) (val_main_v11 (F := Ideal) (A3 m c)) (fun j => A4 m c (ix1 j)) := by
  refine (W2_arr m ρ c 3).trans ((Region0.value (V1 m ρ) c).trans ?_)
  have e0 : V1 m ρ c main_arg0 = A0 m c := keep1 m ρ c main_arg0
  have e1 : V1 m ρ c main_v4 = val_main_v11 (F := Ideal) (A3 m c) := W1_v4 m ρ c
  have e2 : (fun j : Fin 128 => V1 m ρ c main_v5 (ix2 (0 : Fin 1) j)) = fun j => A4 m c (ix1 j) := by
    funext j
    rw [show V1 m ρ c main_v5 = _ from W1_v5 m ρ c]
    exact bias_row (A4 m c) _ j
  rw [e0, e1, e2]
theorem W2_arg0 : W2 m ρ c (Proc.devRef .tc main_arg0) = A0 m c :=
  (W2_arr m ρ c 0).trans (((dat0 (V1 m ρ) c).arrAt_in 0 rfl _).trans ((A_eq0 (V1 m ρ) c 0).trans (keep1 m ρ c main_arg0)))
theorem W2_v1 : W2 m ρ c (Proc.devRef .tc main_v1) = val_main_v1 (F := Ideal) (A1 m c) :=
  (W2_of_ne m ρ c main_v1 (by decide)).trans (W1_v1 m ρ c)
theorem W2_v3 : W2 m ρ c (Proc.devRef .tc main_v3) = val_main_v3 (F := Ideal) (A1 m c) :=
  (W2_of_ne m ρ c main_v3 (by decide)).trans (W1_v3 m ρ c)

/-! ## Between regions 0 and 1: rows taken, added into their target nodes, joined to the node features -/
set_option maxHeartbeats 4000000 in
theorem W3_v17 : W3 m ρ c (Proc.devRef .tc main_v17) = val_main_v19 (F := Ideal) (A0 m c) (A1 m c) (A3 m c) (A4 m c) := by
  show StableHlo.after hostOps1 (W2 m ρ c) (Proc.devRef .tc main_v17) = _
  after_results
  rw [W2_v6, W2_arg0, W2_v1, W2_v3]
  unfold val_main_v19 val_main_v18 val_main_v15 val_main_v12 val_main_v14 val_main_v13 val_main_v10
  rw [HostAffine.edges, kgather_eq, gather_affine (by decide : 0 < 50000) Facts₀.gather_S50000x128_S800000x1_S800000x128_1_0_n_n_0_1_1128_wf Facts₀.gather_S50000x128_S800000x1_S800000x128_1_0_n_n_0_1_1128_wf]
  rfl
set_option maxHeartbeats 4000000 in
theorem W3_v18 : W3 m ρ c (Proc.devRef .tc main_v18) = val_main_v20 (F := Ideal) (A5 m c) := by
  show StableHlo.after hostOps1 (W2 m ρ c) (Proc.devRef .tc main_v18) = _
  after_results
  rw [arg_W2 m ρ c main_arg5]
  rfl
set_option maxHeartbeats 4000000 in
theorem W3_v19 : W3 m ρ c (Proc.devRef .tc main_v19) = shapeCast S1x128 (A6 m c) Facts₀.shapeCasts_S128_S1x128 := by
  show StableHlo.after hostOps1 (W2 m ρ c) (Proc.devRef .tc main_v19) = _
  after_results
  rw [arg_W2 m ρ c main_arg6]
  rfl
theorem W3_v1 : W3 m ρ c (Proc.devRef .tc main_v1) = val_main_v1 (F := Ideal) (A1 m c) :=
  (keep3 m ρ c main_v1).trans (W2_v1 m ρ c)
theorem W3_v3 : W3 m ρ c (Proc.devRef .tc main_v3) = val_main_v3 (F := Ideal) (A1 m c) :=
  (keep3 m ρ c main_v3).trans (W2_v3 m ρ c)

/-! ## Region 1: the first update layer, rectified -/
theorem W4_v20 : W4 m ρ c (Proc.devRef .tc main_v20) = val_main_v25 (F := Ideal) (A0 m c) (A1 m c) (A3 m c) (A4 m c) (A5 m c) (A6 m c) := by
  refine (W4_arr m ρ c 3).trans ((Region1.value (V3 m ρ) c).trans ?_)
  have e0 : V3 m ρ c main_v17 = val_main_v19 (F := Ideal) (A0 m c) (A1 m c) (A3 m c) (A4 m c) := W3_v17 m ρ c
  have e1 : V3 m ρ c main_v18 = val_main_v20 (F := Ideal) (A5 m c) := W3_v18 m ρ c
  have e2 : (fun j : Fin 128 => V3 m ρ c main_v19 (ix2 (0 : Fin 1) j)) = fun j => A6 m c (ix1 j) := by
    funext j
    rw [show V3 m ρ c main_v19 = _ from W3_v19 m ρ c]
    exact bias_row (A6 m c) _ j
  rw [e0, e1, e2]
  unfold val_main_v25 val_main_v24 val_main_v21 val_main_v23 val_main_v22 val_main_call0_v0 val_main_call0_cst
  rw [HostAffine.nodesRelu]
theorem W4_v1 : W4 m ρ c (Proc.devRef .tc main_v1) = val_main_v1 (F := Ideal) (A1 m c) :=
  (W4_of_ne m ρ c main_v1 (by decide)).trans (W3_v1 m ρ c)
theorem W4_v3 : W4 m ρ c (Proc.devRef .tc main_v3) = val_main_v3 (F := Ideal) (A1 m c) :=
  (W4_of_ne m ρ c main_v3 (by decide)).trans (W3_v3 m ρ c)

/-! ## Between regions 1 and 2: the second message weight transposed, its bias as a row -/
theorem W5_v21 : W5 m ρ c (Proc.devRef .tc main_v21) = val_main_v33 (F := Ideal) (A7 m c) := by
  show StableHlo.after hostOps2 (W4 m ρ c) (Proc.devRef .tc main_v21) = _
  after_results
  rw [arg_W4 m ρ c main_arg7]
  rfl
theorem W5_v22 : W5 m ρ c (Proc.devRef .tc main_v22) = shapeCast S1x128 (A8 m c) Facts₀.shapeCasts_S128_S1x128 := by
  show StableHlo.after hostOps2 (W4 m ρ c) (Proc.devRef .tc main_v22) = _
  after_results
  rw [arg_W4 m ρ c main_arg8]
  rfl
theorem W5_v20 : W5 m ρ c (Proc.devRef .tc main_v20) = val_main_v25 (F := Ideal) (A0 m c) (A1 m c) (A3 m c) (A4 m c) (A5 m c) (A6 m c) :=
  (keep5 m ρ c main_v20).trans (W4_v20 m ρ c)

/-! ## Region 2: the second message layer of every node -/
theorem W6_v23 : W6 m ρ c (Proc.devRef .tc main_v23)
    = affine (M := 50000) (K := 128) (N := 128) (val_main_v25 (F := Ideal) (A0 m c) (A1 m c) (A3 m c) (A4 m c) (A5 m c) (A6 m c)) (val_main_v33 (F := Ideal) (A7 m c)) (fun j => A8 m c (ix1 j)) := by
  refine (W6_arr m ρ c 3).trans ((Region2.value (V5 m ρ) c).trans ?_)
  have e0 : V5 m ρ c main_v20 = val_main_v25 (F := Ideal) (A0 m c) (A1 m c) (A3 m c) (A4 m c) (A5 m c) (A6 m c) := W5_v20 m ρ c
  have e1 : V5 m ρ c main_v21 = val_main_v33 (F := Ideal) (A7 m c) := W5_v21 m ρ c
  have e2 : (fun j : Fin 128 => V5 m ρ c main_v22 (ix2 (0 : Fin 1) j)) = fun j => A8 m c (ix1 j) := by
    funext j
    rw [show V5 m ρ c main_v22 = _ from W5_v22 m ρ c]
    exact bias_row (A8 m c) _ j
  rw [e0, e1, e2]
theorem W6_v20 : W6 m ρ c (Proc.devRef .tc main_v20) = val_main_v25 (F := Ideal) (A0 m c) (A1 m c) (A3 m c) (A4 m c) (A5 m c) (A6 m c) :=
  (W6_arr m ρ c 0).trans (((dat2 (V5 m ρ) c).arrAt_in 0 rfl _).trans ((A_eq2 (V5 m ρ) c 0).trans (W5_v20 m ρ c)))
theorem W6_v1 : W6 m ρ c (Proc.devRef .tc main_v1) = val_main_v1 (F := Ideal) (A1 m c) :=
  (W6_of_ne m ρ c main_v1 (by decide)).trans ((keep5 m ρ c main_v1).trans (W4_v1 m ρ c))
theorem W6_v3 : W6 m ρ c (Proc.devRef .tc main_v3) = val_main_v3 (F := Ideal) (A1 m c) :=
  (W6_of_ne m ρ c main_v3 (by decide)).trans ((keep5 m ρ c main_v3).trans (W4_v3 m ρ c))

/-! ## Between regions 2 and 3: as between 0 and 1, one layer on -/
set_option maxHeartbeats 4000000 in
theorem W7_v34 : W7 m ρ c (Proc.devRef .tc main_v34) = val_main_v41 (F := Ideal) (A0 m c) (A1 m c) (A3 m c) (A4 m c) (A5 m c) (A6 m c) (A7 m c) (A8 m c) := by
  show StableHlo.after hostOps3 (W6 m ρ c) (Proc.devRef .tc main_v34) = _
  after_results
  rw [W6_v23, W6_v20, W6_v1, W6_v3]
  unfold val_main_v41 val_main_v40 val_main_v37 val_main_v34 val_main_v36 val_main_v35 val_main_v32
  rw [HostAffine.edges, kgather_eq, gather_affine (by decide : 0 < 50000) Facts₀.gather_S50000x128_S800000x1_S800000x128_1_0_n_n_0_1_1128_wf Facts₀.gather_S50000x128_S800000x1_S800000x128_1_0_n_n_0_1_1128_wf]
  rfl
set_option maxHeartbeats 4000000 in
theorem W7_v35 : W7 m ρ c (Proc.devRef .tc main_v35) = val_main_v42 (F := Ideal) (A9 m c) := by
  show StableHlo.after hostOps3 (W6 m ρ c) (Proc.devRef .tc main_v35) = _
  after_results
  rw [arg_W6 m ρ c main_arg9]
  rfl
set_option maxHeartbeats 4000000 in
theorem W7_v36 : W7 m ρ c (Proc.devRef .tc main_v36) = shapeCast S1x128 (A10 m c) Facts₀.shapeCasts_S128_S1x128 := by
  show StableHlo.after hostOps3 (W6 m ρ c) (Proc.devRef .tc main_v36) = _
  after_results
  rw [arg_W6 m ρ c main_arg10]
  rfl

/-! ## Region 3: the second update layer, rectified -/
theorem W8_v37 : W8 m ρ c (Proc.devRef .tc main_v37) = val_main_v47 (F := Ideal) (A0 m c) (A1 m c) (A3 m c) (A4 m c) (A5 m c) (A6 m c) (A7 m c) (A8 m c) (A9 m c) (A10 m c) := by
  refine (W8_arr m ρ c 3).trans ((Region3.value (V7 m ρ) c).trans ?_)
  have e0 : V7 m ρ c main_v34 = val_main_v41 (F := Ideal) (A0 m c) (A1 m c) (A3 m c) (A4 m c) (A5 m c) (A6 m c) (A7 m c) (A8 m c) := W7_v34 m ρ c
  have e1 : V7 m ρ c main_v35 = val_main_v42 (F := Ideal) (A9 m c) := W7_v35 m ρ c
  have e2 : (fun j : Fin 128 => V7 m ρ c main_v36 (ix2 (0 : Fin 1) j)) = fun j => A10 m c (ix1 j) := by
    funext j
    rw [show V7 m ρ c main_v36 = _ from W7_v36 m ρ c]
    exact bias_row (A10 m c) _ j
  rw [e0, e1, e2]
  unfold val_main_v47 val_main_v46 val_main_v43 val_main_v45 val_main_v44 val_main_call1_v0 val_main_call1_cst
  rw [HostAffine.nodesRelu]

/-! ## Before region 4: the pooled sums over the graph ids, divided by the counts; the classifier's weight and bias -/
set_option maxHeartbeats 8000000 in
theorem W11_v54 : W11 m ρ c (Proc.devRef .tc main_v54) = val_main_v64 (F := Ideal) (A0 m c) (A1 m c) (A2 m c) (A3 m c) (A4 m c) (A5 m c) (A6 m c) (A7 m c) (A8 m c) (A9 m c) (A10 m c) := by
  rw [W11_eq]
  simp only [hostOps4all, hostOps4, hostOps4_1, hostOps4_2, List.cons_append, List.nil_append]
  after_results
  rw [W8_v37, arg_W8 m ρ c main_arg2]
  rfl
set_option maxHeartbeats 4000000 in
theorem W11_v55 : W11 m ρ c (Proc.devRef .tc main_v55) = val_main_v65 (F := Ideal) (A11 m c) := by
  show StableHlo.after hostOps4_2 (W10 m ρ c) (Proc.devRef .tc main_v55) = _
  after_results
  rw [arg_W8 m ρ c main_arg11]
  rfl
set_option maxHeartbeats 4000000 in
theorem W11_v56 : W11 m ρ c (Proc.devRef .tc main_v56) = shapeCast S1x10 (A12 m c) Facts₀.shapeCasts_S10_S1x10 := by
  show StableHlo.after hostOps4_2 (W10 m ρ c) (Proc.devRef .tc main_v56) = _
  after_results
  rw [arg_W8 m ρ c main_arg12]
  rfl

/-! ## Region 4: the classifier — the kernel program's result is the reference's -/
theorem W12_v57 : W12 m ρ c (Proc.devRef .tc main_v57) = val_main_v69 (F := Ideal) (A0 m c) (A1 m c) (A2 m c) (A3 m c) (A4 m c) (A5 m c) (A6 m c) (A7 m c) (A8 m c) (A9 m c) (A10 m c) (A11 m c) (A12 m c) := by
  refine (W12_arr m ρ c 3).trans ((Region4.value (V11 m ρ) c).trans ?_)
  have e0 : V11 m ρ c main_v54 = val_main_v64 (F := Ideal) (A0 m c) (A1 m c) (A2 m c) (A3 m c) (A4 m c) (A5 m c) (A6 m c) (A7 m c) (A8 m c) (A9 m c) (A10 m c) := W11_v54 m ρ c
  have e1 : V11 m ρ c main_v55 = val_main_v65 (F := Ideal) (A11 m c) := W11_v55 m ρ c
  have e2 : (fun j : Fin 10 => V11 m ρ c main_v56 (ix2 (0 : Fin 1) j)) = fun j => A12 m c (ix1 j) := by
    funext j
    rw [show V11 m ρ c main_v56 = _ from W11_v56 m ρ c]
    exact bias_row (A12 m c) _ j
  rw [e0, e1, e2]
  unfold val_main_v69 val_main_v66 val_main_v68 val_main_v67
  rw [HostAffine.graphs]

end Cert.Mpnn.Chain
end
-- ==== Proof.lean ====
/-
  A two-layer message-passing network with mean pooling and a linear classifier, computed two ways.
  The reference gathers each edge's source-node features and THEN applies the message layer, edge by edge; the kernel
  program applies the message layer once to every node (a pipelined dense-layer kernel) and THEN gathers. A dense
  layer acts on each row by itself, and the gather is a choice of rows (start indices read signed and clamped into the
  node range, the same in both programs), so the two orders give the same per-edge messages, entry by entry, over the
  extended reals — with no appeal to finiteness: both sides are the same sums of the same products. Everything
  between the dense layers (the scatter-addition into target nodes, the concatenation with the node features, the
  pooling by graph id divided by the per-graph counts) is the same host operations applied to operands just proved
  equal. Each of the kernel program's five dense-layer regions (message and rectified update of either layer, and the
  classifier) leaves in its output array the dense layer of the arrays it found: the kernel body stores, at each grid
  point, the dense layer of that point's block of rows (the bf16 roundings on the way into the product are the
  identity here, the product into a zero accumulator is the plain sum), and the blocks tile the rows.
  The word-level kernel program and the idealized one terminate with their arguments unchanged by the generated frame
  of the five regions; the reference by its generated run. The ideal pass rewrote nothing, so the idealized kernel
  program is the printed one read over the extended reals.
-/
import proofs.«118678_j72232759984910_1_alg».proof.Defs
import proofs.«118678_j72232759984910_1_alg».proof.Proof.Gen.Kernel
import proofs.«118678_j72232759984910_1_alg».proof.Proof.Gen.Kernel.Skeleton
import proofs.«118678_j72232759984910_1_alg».proof.Proof.Gen.Kernel.Launch
import proofs.«118678_j72232759984910_1_alg».proof.Proof.Gen.Kernel.Points
import proofs.«118678_j72232759984910_1_alg».proof.Proof.Gen.Kernel.Frame
import proofs.«118678_j72232759984910_1_alg».proof.Proof.Gen.KernelIdeal
import proofs.«118678_j72232759984910_1_alg».proof.Proof.Gen.KernelIdeal.Skeleton
import proofs.«118678_j72232759984910_1_alg».proof.Proof.Gen.KernelIdeal.Launch
import proofs.«118678_j72232759984910_1_alg».proof.Proof.Gen.KernelIdeal.Points
import proofs.«118678_j72232759984910_1_alg».proof.Proof.Gen.KernelIdeal.Frame
import proofs.«118678_j72232759984910_1_alg».proof.Proof.Gen.ReferenceIdeal
import proofs.«118678_j72232759984910_1_alg».proof.Proof.Gen.Pre_finite_inputs
import proofs.«118678_j72232759984910_1_alg».proof.Proof.Gen.ReferenceIdeal.Run
import proofs.«118678_j72232759984910_1_alg».proof.Proof.Gen.ReferenceIdeal.Read
import proofs.«118678_j72232759984910_1_alg».proof.Proof.KernelRun
import proofs.«118678_j72232759984910_1_alg».proof.Proof.KernelChain
import Idealize.ShloMosaic.Adequacy
import Idealize.ShloMosaic.Init

noncomputable section

namespace Cert.Proof

open Idealize.ShloMosaic Idealize.ShloMosaic.TcCoe Idealize.SL.Sem

/-- The word-level kernel program runs, nothing faulting, and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the classifier's output of the pooled second-layer features: the reference's last
    intermediate array as a function of the thirteen arguments. The kernel program's result buffer holds it by the
    walk through its boundaries; the reference's by its run; the arguments agree by hypothesis. -/
theorem algebraic : Cert.algebraic_KernelIdeal_ReferenceIdeal := by
  intro m ρ m' ρ' _ hagree
  refine ⟨fun c => Cert.ReferenceIdeal.Read.val_main_v69 (F := Ideal) (Cert.Mpnn.Chain.A0 m c) (Cert.Mpnn.Chain.A1 m c) (Cert.Mpnn.Chain.A2 m c) (Cert.Mpnn.Chain.A3 m c) (Cert.Mpnn.Chain.A4 m c) (Cert.Mpnn.Chain.A5 m c) (Cert.Mpnn.Chain.A6 m c) (Cert.Mpnn.Chain.A7 m c) (Cert.Mpnn.Chain.A8 m c) (Cert.Mpnn.Chain.A9 m c) (Cert.Mpnn.Chain.A10 m c) (Cert.Mpnn.Chain.A11 m c) (Cert.Mpnn.Chain.A12 m c), ?_, ?_⟩
  · exact (θ_run Cert.KernelIdeal.defs _ _).mono
      (fun r h c => ⟨(h c).1.trans (Cert.Mpnn.Chain.W12_v57 m ρ c), (h c).2⟩)
      (Cert.Mpnn.KernelRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v69_eq]
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
